-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S32x64 : Shape := ⟨2, ![32, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S64x1 .f32) (main_arg9 : FVec F S64x1 .f32) (main_arg10 : FVec F S1 .f32) (main_v33 : IVec S_ 1) : IVec S_ 1 :=
  let main_v34 : FVec F S64x1 .f32 := Host.absf main_arg8
  let main_cst_12 : FVec F S_ .f32 := constant S_ .f32 0x7F800000#32
  let main_v35 : FVec F S64x1 .f32 := broadcastInDim S64x1 ![] bcast_S_S64x1 main_cst_12
  let main_v36 : IVec S64x1 1 := cmpf .olt main_v34 main_v35
  let main_c_13 : IVec S_ 1 := constantI S_ 1 1#1
  let main_v37 : IVec S_ 1 := (fun x v => Host.reduce IntOp.andi x v reducesTo_S64x1_S_d0_1 h_S_) main_v36 main_c_13
  let main_v38 : IVec S_ 1 := andi main_v33 main_v37
  let main_v39 : FVec F S64x1 .f32 := Host.absf main_arg9
  let main_cst_14 : FVec F S_ .f32 := constant S_ .f32 0x7F800000#32
  let main_v40 : FVec F S64x1 .f32 := broadcastInDim S64x1 ![] bcast_S_S64x1 main_cst_14
  let main_v41 : IVec S64x1 1 := cmpf .olt main_v39 main_v40
  let main_c_15 : IVec S_ 1 := constantI S_ 1 1#1
  let main_v42 : IVec S_ 1 := (fun x v => Host.reduce IntOp.andi x v reducesTo_S64x1_S_d0_1 h_S_) main_v41 main_c_15
  let main_v43 : IVec S_ 1 := andi main_v38 main_v42
  let main_v44 : FVec F S1 .f32 := Host.absf main_arg10
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg5 : FVec F S64x64 .f32) (main_arg6 : FVec F S64x64 .f32) (main_arg7 : FVec F S64 .f32) (main_arg8 : FVec F S64x1 .f32) (main_arg9 : FVec F S64x1 .f32) (main_arg10 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_v33

def fn {F : FTy → Type} [FloatOps F] (main_arg0 : FVec F S100000x32 .f32) (main_arg1 : IVec S2x1600000 32) (main_arg2 : FVec F S32x64 .f32) (main_arg3 : FVec F S32x64 .f32) (main_arg4 : FVec F S64 .f32) (main_arg5 : FVec F S64x64 .f32) (main_arg6 : FVec F S64x64 .f32) (main_arg7 : FVec F S64 .f32) (main_arg8 : FVec F S64x1 .f32) (main_arg9 : FVec F S64x1 .f32) (main_arg10 : FVec F S1 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S32x64 .f32 := Host.absf main_arg2
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : IVec S_ 1 := andi main_v3 main_v7
  let main_v9 : FVec F S32x64 .f32 := Host.absf main_arg3
  let main_cst_2 : FVec F S_ .f32 := constant S_ .f32 0x7F800000#32
  let main_v10 : FVec F S32x64 .f32 := broadcastInDim S32x64 ![] bcast_S_S32x64 main_cst_2
  let main_v11 : IVec S32x64 1 := cmpf .olt main_v9 main_v10
  let main_c_3 : IVec S_ 1 := constantI S_ 1 1#1
  let main_v12 : IVec S_ 1 := (fun x v => Host.reduce IntOp.andi x v reducesTo_S32x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_v13 main_v16
-- ==== Kernel.lean ====
abbrev S100000x32 : Shape := ⟨2, ![100000, 32]⟩
abbrev S2x1600000 : Shape := ⟨2, ![2, 1600000]⟩
abbrev S32x64 : Shape := ⟨2, ![32, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x32 : Shape := ⟨2, ![1600000, 32]⟩
abbrev S1x64 : Shape := ⟨2, ![1, 64]⟩
abbrev S100000x64 : Shape := ⟨2, ![100000, 64]⟩
abbrev S4000x32 : Shape := ⟨2, ![4000, 32]⟩
abbrev S4000x1 : Shape := ⟨2, ![4000, 1]⟩
abbrev S4000x64 : Shape := ⟨2, ![4000, 64]⟩
abbrev S1600000x64 : Shape := ⟨2, ![1600000, 64]⟩
abbrev S1x1 : Shape := ⟨2, ![1, 1]⟩

abbrev nBuf : Space → Nat
  | .hbm => 68
  | .vmem => 33
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S32x64, .f32⟩
  | .hbm, ⟨3, _⟩ => ⟨S32x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64x1, .f32⟩
  | .hbm, ⟨9, _⟩ => ⟨S64x1, .f32⟩
  | .hbm, ⟨10, _⟩ => ⟨S1, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S100000x1, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x32, .f32⟩
  | .hbm, ⟨31, _⟩ => ⟨S_, .f32⟩
  | .hbm, ⟨32, _⟩ => ⟨S100000x32, .f32⟩
  | .hbm, ⟨33, _⟩ => ⟨S1600000x1, .i32⟩
  | .hbm, ⟨34, _⟩ => ⟨S100000x32, .f32⟩
  | .hbm, ⟨35, _⟩ => ⟨S1x64, .f32⟩
  | .hbm, ⟨36, _⟩ => ⟨S100000x64, .f32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000x64, .f32⟩
  | .hbm, ⟨46, _⟩ => ⟨S_, .f32⟩
  | .hbm, ⟨47, _⟩ => ⟨S100000x64, .f32⟩
  | .hbm, ⟨48, _⟩ => ⟨S1600000x1, .i32⟩
  | .hbm, ⟨49, _⟩ => ⟨S100000x64, .f32⟩
  | .hbm, ⟨50, _⟩ => ⟨S1x64, .f32⟩
  | .hbm, ⟨51, _⟩ => ⟨S100000x64, .f32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x64, .f32⟩
  | .hbm, ⟨61, _⟩ => ⟨S_, .f32⟩
  | .hbm, ⟨62, _⟩ => ⟨S100000x64, .f32⟩
  | .hbm, ⟨63, _⟩ => ⟨S1600000x1, .i32⟩
  | .hbm, ⟨64, _⟩ => ⟨S100000x64, .f32⟩
  | .hbm, ⟨65, _⟩ => ⟨S1x1, .f32⟩
  | .hbm, ⟨66, _⟩ => ⟨S100000x1, .f32⟩
  | .hbm, ⟨67, _⟩ => ⟨S100000, .f32⟩
  | .local _ .vmem, ⟨0, _⟩ => ⟨S4000x32, .f32⟩
  | .local _ .vmem, ⟨1, _⟩ => ⟨S4000x32, .f32⟩
  | .local _ .vmem, ⟨2, _⟩ => ⟨S4000x32, .f32⟩
  | .local _ .vmem, ⟨3, _⟩ => ⟨S4000x32, .f32⟩
  | .local _ .vmem, ⟨4, _⟩ => ⟨S4000x1, .f32⟩
  | .local _ .vmem, ⟨5, _⟩ => ⟨S4000x1, .f32⟩
  | .local _ .vmem, ⟨6, _⟩ => ⟨S32x64, .f32⟩
  | .local _ .vmem, ⟨7, _⟩ => ⟨S32x64, .f32⟩
  | .local _ .vmem, ⟨8, _⟩ => ⟨S1x64, .f32⟩
  | .local _ .vmem, ⟨9, _⟩ => ⟨S4000x64, .f32⟩
  | .local _ .vmem, ⟨10, _⟩ => ⟨S4000x64, .f32⟩
  | .local _ .vmem, ⟨11, _⟩ => ⟨S4000x64, .f32⟩
  | .local _ .vmem, ⟨12, _⟩ => ⟨S4000x64, .f32⟩
  | .local _ .vmem, ⟨13, _⟩ => ⟨S4000x64, .f32⟩
  | .local _ .vmem, ⟨14, _⟩ => ⟨S4000x64, .f32⟩
  | .local _ .vmem, ⟨15, _⟩ => ⟨S4000x1, .f32⟩
  | .local _ .vmem, ⟨16, _⟩ => ⟨S4000x1, .f32⟩
  | .local _ .vmem, ⟨17, _⟩ => ⟨S64x64, .f32⟩
  | .local _ .vmem, ⟨18, _⟩ => ⟨S64x64, .f32⟩
  | .local _ .vmem, ⟨19, _⟩ => ⟨S1x64, .f32⟩
  | .local _ .vmem, ⟨20, _⟩ => ⟨S4000x64, .f32⟩
  | .local _ .vmem, ⟨21, _⟩ => ⟨S4000x64, .f32⟩
  | .local _ .vmem, ⟨22, _⟩ => ⟨S4000x64, .f32⟩
  | .local _ .vmem, ⟨23, _⟩ => ⟨S4000x64, .f32⟩
  | .local _ .vmem, ⟨24, _⟩ => ⟨S4000x64, .f32⟩
  | .local _ .vmem, ⟨25, _⟩ => ⟨S4000x64, .f32⟩
  | .local _ .vmem, ⟨26, _⟩ => ⟨S4000x1, .f32⟩
  | .local _ .vmem, ⟨27, _⟩ => ⟨S4000x1, .f32⟩
  | .local _ .vmem, ⟨28, _⟩ => ⟨S64x1, .f32⟩
  | .local _ .vmem, ⟨29, _⟩ => ⟨S64x1, .f32⟩
  | .local _ .vmem, ⟨30, _⟩ => ⟨S1x1, .f32⟩
  | .local _ .vmem, ⟨31, _⟩ => ⟨S4000x1, .f32⟩
  | .local _ .vmem, ⟨32, _⟩ => ⟨S4000x1, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_6 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_8 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S4000x1 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S100000x32 : S_.BroadcastsInDim S100000x32 (![] : Fin 0 → Fin S100000x32.rank)
  shapeCasts_S64_S1x64 : S64.ShapeCasts S1x64
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  inb_S4000x32_S4000x32_0_0 : ∀ a, (![0, 0] : Fin 2 → Nat) a + S4000x32.size a ≤ S4000x32.size a
  h_S4000x32 : 0 < S4000x32.numel
  shapeCasts_S4000x32_S4000x32 : S4000x32.ShapeCasts S4000x32
  broadcasts_S4000x1_S4000x32 : S4000x1.Broadcasts S4000x32
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S4000x64_S4000x64_0_0 : ∀ a, (![0, 0] : Fin 2 → Nat) a + S4000x64.size a ≤ S4000x64.size a
  h_S4000x64 : 0 < S4000x64.numel
  bcast_S_S100000x64 : S_.BroadcastsInDim S100000x64 (![] : Fin 0 → Fin S100000x64.rank)
  shapeCasts_S4000x64_S4000x64 : S4000x64.ShapeCasts S4000x64
  broadcasts_S4000x1_S4000x64 : S4000x1.Broadcasts S4000x64
  inb_S64x64_S64x64_0_0 : ∀ a, (![0, 0] : Fin 2 → Nat) a + S64x64.size a ≤ S64x64.size a
  h_S64x64 : 0 < S64x64.numel
  shapeCasts_S1_S1x1 : S1.ShapeCasts S1x1
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  shapeCasts_S100000x1_S100000 : S100000x1.ShapeCasts S100000
  scatter_S100000_S1600000x1_S1600000_n_0_0_1_wf : ScatterDims.WF S100000 S1600000x1 S1600000 [] [0] [0] 1
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S4000x32_S32x64_S4000x64_1_0_0_1_n_n_wf : DotDims.WF S4000x32 S32x64 S4000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S4000x64_S64x64_S4000x64_1_0_0_1_n_n_wf : DotDims.WF S4000x64 S64x64 S4000x64 [1] [0] [0] [1] [] []
  dot_S4000x64_S64x1_S4000x1_1_0_0_1_n_n_wf : DotDims.WF S4000x64 S64x1 S4000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x32.size a ≤ S100000x32.size a
  hwx0_0 : ∀ i : grid0.Coords, EltTy.bits .f32 = 32 ∨ (Rect.block (s := S100000x32) S4000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x32.size a ≤ S100000x32.size a
  hwx0_1 : ∀ i : grid0.Coords, EltTy.bits .f32 = 32 ∨ (Rect.block (s := S100000x32) S4000x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x64.size a ≤ S32x64.size a
  hwx0_3 : ∀ i : grid0.Coords, EltTy.bits .f32 = 32 ∨ (Rect.block (s := S32x64) S32x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x64.size a ≤ S32x64.size a
  hwx0_4 : ∀ i : grid0.Coords, EltTy.bits .f32 = 32 ∨ (Rect.block (s := S32x64) S32x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x64.size a ≤ S100000x64.size a
  hwx0_6 : ∀ i : grid0.Coords, EltTy.bits .f32 = 32 ∨ (Rect.block (s := S100000x64) S4000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x64.size a ≤ S100000x64.size a
  hwx1_1 : ∀ i : grid1.Coords, EltTy.bits .f32 = 32 ∨ (Rect.block (s := S100000x64) S4000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x64.size a ≤ S100000x64.size a
  hwx1_6 : ∀ i : grid1.Coords, EltTy.bits .f32 = 32 ∨ (Rect.block (s := S100000x64) S4000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S100000x64.size a
  hwx2_0 : ∀ i : grid2.Coords, EltTy.bits .f32 = 32 ∨ (Rect.block (s := S100000x64) S4000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x64.size a ≤ S100000x64.size a
  hwx2_1 : ∀ i : grid2.Coords, EltTy.bits .f32 = 32 ∨ (Rect.block (s := S100000x64) S4000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x1.size a ≤ S100000x1.size a
  hwx2_2 : ∀ i : grid2.Coords, EltTy.bits .f32 = 32 ∨ (Rect.block (s := S100000x1) S4000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x1.size a ≤ S64x1.size a
  hwx2_3 : ∀ i : grid2.Coords, EltTy.bits .f32 = 32 ∨ (Rect.block (s := S64x1) S64x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x1.size a ≤ S64x1.size a
  hwx2_4 : ∀ i : grid2.Coords, EltTy.bits .f32 = 32 ∨ (Rect.block (s := S64x1) S64x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x1.size a ≤ S1x1.size a
  hwx2_5 : ∀ i : grid2.Coords, EltTy.bits .f32 = 32 ∨ (Rect.block (s := S1x1) S1x1.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S4000x1.size a ≤ S100000x1.size a
  hwx2_6 : ∀ i : grid2.Coords, EltTy.bits .f32 = 32 ∨ (Rect.block (s := S100000x1) S4000x1.size (cc2_transform_6 i) (hinb2_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S4000x32_S32x64_S4000x64_1_0_0_1_n_n : DotDims S4000x32 S32x64 S4000x64 where
  lhsContracting := [1]
  rhsContracting := [0]
  lhsNonContracting := [0]
  rhsNonContracting := [1]
  lhsBatch := []
  rhsBatch := []
  wf := dot_S4000x32_S32x64_S4000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def dot_S4000x64_S64x1_S4000x1_1_0_0_1_n_n : DotDims S4000x64 S64x1 S4000x1 where
  lhsContracting := [1]
  rhsContracting := [0]
  lhsNonContracting := [0]
  rhsNonContracting := [1]
  lhsBatch := []
  rhsBatch := []
  wf := dot_S4000x64_S64x1_S4000x1_1_0_0_1_n_n_wf

abbrev win0_0 : Pipeline.Window sig grid0 :=
  Pipeline.Window.ofSpec (Memref.whole main_v18) S4000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S32x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S32x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S4000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v30) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S4000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v32) S4000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v42) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v32) S4000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v8) S4000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S64x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S64x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v43) S1x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v44) S4000x1.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x32 : Shape := ⟨2, ![100000, 32]⟩
abbrev S2x1600000 : Shape := ⟨2, ![2, 1600000]⟩
abbrev S32x64 : Shape := ⟨2, ![32, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x32 : Shape := ⟨2, ![1600000, 32]⟩
abbrev S100000 : Shape := ⟨1, ![100000]⟩
abbrev S100000x1 : Shape := ⟨2, ![100000, 1]⟩
abbrev S100000x64 : Shape := ⟨2, ![100000, 64]⟩
abbrev S1x64 : Shape := ⟨2, ![1, 64]⟩
abbrev S1600000x64 : Shape := ⟨2, ![1600000, 64]⟩
abbrev S1x1 : Shape := ⟨2, ![1, 1]⟩

abbrev nBuf : Space → Nat
  | .hbm => 123
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S32x64, .f32⟩
  | .hbm, ⟨3, _⟩ => ⟨S32x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64x1, .f32⟩
  | .hbm, ⟨9, _⟩ => ⟨S64x1, .f32⟩
  | .hbm, ⟨10, _⟩ => ⟨S1, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x32, .f32⟩
  | .hbm, ⟨24, _⟩ => ⟨S_, .f32⟩
  | .hbm, ⟨25, _⟩ => ⟨S100000x32, .f32⟩
  | .hbm, ⟨26, _⟩ => ⟨S1600000x1, .i32⟩
  | .hbm, ⟨27, _⟩ => ⟨S100000x32, .f32⟩
  | .hbm, ⟨28, _⟩ => ⟨S_, .f32⟩
  | .hbm, ⟨29, _⟩ => ⟨S1600000, .f32⟩
  | .hbm, ⟨30, _⟩ => ⟨S_, .f32⟩
  | .hbm, ⟨31, _⟩ => ⟨S100000, .f32⟩
  | .hbm, ⟨32, _⟩ => ⟨S1600000x1, .i32⟩
  | .hbm, ⟨33, _⟩ => ⟨S100000, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000x1, .f32⟩
  | .hbm, ⟨38, _⟩ => ⟨S100000x32, .f32⟩
  | .hbm, ⟨39, _⟩ => ⟨S100000x32, .f32⟩
  | .hbm, ⟨40, _⟩ => ⟨S100000x64, .f32⟩
  | .hbm, ⟨41, _⟩ => ⟨S100000x64, .f32⟩
  | .hbm, ⟨42, _⟩ => ⟨S100000x64, .f32⟩
  | .hbm, ⟨43, _⟩ => ⟨S1x64, .f32⟩
  | .hbm, ⟨44, _⟩ => ⟨S100000x64, .f32⟩
  | .hbm, ⟨45, _⟩ => ⟨S100000x64, .f32⟩
  | .hbm, ⟨46, _⟩ => ⟨S_, .f32⟩
  | .hbm, ⟨47, _⟩ => ⟨S100000x64, .f32⟩
  | .hbm, ⟨48, _⟩ => ⟨S100000x64, .f32⟩
  | .hbm, ⟨49, _⟩ => ⟨S1x1600000, .i32⟩
  | .hbm, ⟨50, _⟩ => ⟨S1600000, .i32⟩
  | .hbm, ⟨51, _⟩ => ⟨S1x1600000, .i32⟩
  | .hbm, ⟨52, _⟩ => ⟨S1600000, .i32⟩
  | .hbm, ⟨53, _⟩ => ⟨S_, .i32⟩
  | .hbm, ⟨54, _⟩ => ⟨S1600000, .i32⟩
  | .hbm, ⟨55, _⟩ => ⟨S1600000, .i1⟩
  | .hbm, ⟨56, _⟩ => ⟨S_, .i32⟩
  | .hbm, ⟨57, _⟩ => ⟨S1600000, .i32⟩
  | .hbm, ⟨58, _⟩ => ⟨S1600000, .i32⟩
  | .hbm, ⟨59, _⟩ => ⟨S1600000, .i32⟩
  | .hbm, ⟨60, _⟩ => ⟨S1600000x1, .i32⟩
  | .hbm, ⟨61, _⟩ => ⟨S1600000x64, .f32⟩
  | .hbm, ⟨62, _⟩ => ⟨S_, .f32⟩
  | .hbm, ⟨63, _⟩ => ⟨S100000x64, .f32⟩
  | .hbm, ⟨64, _⟩ => ⟨S1600000x1, .i32⟩
  | .hbm, ⟨65, _⟩ => ⟨S100000x64, .f32⟩
  | .hbm, ⟨66, _⟩ => ⟨S_, .f32⟩
  | .hbm, ⟨67, _⟩ => ⟨S1600000, .f32⟩
  | .hbm, ⟨68, _⟩ => ⟨S_, .f32⟩
  | .hbm, ⟨69, _⟩ => ⟨S100000, .f32⟩
  | .hbm, ⟨70, _⟩ => ⟨S1600000x1, .i32⟩
  | .hbm, ⟨71, _⟩ => ⟨S100000, .f32⟩
  | .hbm, ⟨72, _⟩ => ⟨S_, .f32⟩
  | .hbm, ⟨73, _⟩ => ⟨S100000, .f32⟩
  | .hbm, ⟨74, _⟩ => ⟨S100000, .f32⟩
  | .hbm, ⟨75, _⟩ => ⟨S100000x1, .f32⟩
  | .hbm, ⟨76, _⟩ => ⟨S100000x64, .f32⟩
  | .hbm, ⟨77, _⟩ => ⟨S100000x64, .f32⟩
  | .hbm, ⟨78, _⟩ => ⟨S100000x64, .f32⟩
  | .hbm, ⟨79, _⟩ => ⟨S100000x64, .f32⟩
  | .hbm, ⟨80, _⟩ => ⟨S100000x64, .f32⟩
  | .hbm, ⟨81, _⟩ => ⟨S1x64, .f32⟩
  | .hbm, ⟨82, _⟩ => ⟨S100000x64, .f32⟩
  | .hbm, ⟨83, _⟩ => ⟨S100000x64, .f32⟩
  | .hbm, ⟨84, _⟩ => ⟨S_, .f32⟩
  | .hbm, ⟨85, _⟩ => ⟨S100000x64, .f32⟩
  | .hbm, ⟨86, _⟩ => ⟨S100000x64, .f32⟩
  | .hbm, ⟨87, _⟩ => ⟨S1x1600000, .i32⟩
  | .hbm, ⟨88, _⟩ => ⟨S1600000, .i32⟩
  | .hbm, ⟨89, _⟩ => ⟨S1x1600000, .i32⟩
  | .hbm, ⟨90, _⟩ => ⟨S1600000, .i32⟩
  | .hbm, ⟨91, _⟩ => ⟨S_, .i32⟩
  | .hbm, ⟨92, _⟩ => ⟨S1600000, .i32⟩
  | .hbm, ⟨93, _⟩ => ⟨S1600000, .i1⟩
  | .hbm, ⟨94, _⟩ => ⟨S_, .i32⟩
  | .hbm, ⟨95, _⟩ => ⟨S1600000, .i32⟩
  | .hbm, ⟨96, _⟩ => ⟨S1600000, .i32⟩
  | .hbm, ⟨97, _⟩ => ⟨S1600000, .i32⟩
  | .hbm, ⟨98, _⟩ => ⟨S1600000x1, .i32⟩
  | .hbm, ⟨99, _⟩ => ⟨S1600000x64, .f32⟩
  | .hbm, ⟨100, _⟩ => ⟨S_, .f32⟩
  | .hbm, ⟨101, _⟩ => ⟨S100000x64, .f32⟩
  | .hbm, ⟨102, _⟩ => ⟨S1600000x1, .i32⟩
  | .hbm, ⟨103, _⟩ => ⟨S100000x64, .f32⟩
  | .hbm, ⟨104, _⟩ => ⟨S_, .f32⟩
  | .hbm, ⟨105, _⟩ => ⟨S1600000, .f32⟩
  | .hbm, ⟨106, _⟩ => ⟨S_, .f32⟩
  | .hbm, ⟨107, _⟩ => ⟨S100000, .f32⟩
  | .hbm, ⟨108, _⟩ => ⟨S1600000x1, .i32⟩
  | .hbm, ⟨109, _⟩ => ⟨S100000, .f32⟩
  | .hbm, ⟨110, _⟩ => ⟨S_, .f32⟩
  | .hbm, ⟨111, _⟩ => ⟨S100000, .f32⟩
  | .hbm, ⟨112, _⟩ => ⟨S100000, .f32⟩
  | .hbm, ⟨113, _⟩ => ⟨S100000x1, .f32⟩
  | .hbm, ⟨114, _⟩ => ⟨S100000x64, .f32⟩
  | .hbm, ⟨115, _⟩ => ⟨S100000x64, .f32⟩
  | .hbm, ⟨116, _⟩ => ⟨S100000x1, .f32⟩
  | .hbm, ⟨117, _⟩ => ⟨S100000x1, .f32⟩
  | .hbm, ⟨118, _⟩ => ⟨S100000x1, .f32⟩
  | .hbm, ⟨119, _⟩ => ⟨S1x1, .f32⟩
  | .hbm, ⟨120, _⟩ => ⟨S100000x1, .f32⟩
  | .hbm, ⟨121, _⟩ => ⟨S100000x1, .f32⟩
  | .hbm, ⟨122, _⟩ => ⟨S100000, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call0_cst : Ref sig .tc := ⟨.hbm, 46, rfl⟩
abbrev main_call0_v0 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_4 : Ref sig .tc := ⟨.hbm, 53, rfl⟩
abbrev main_v34 : Ref sig .tc := ⟨.hbm, 54, rfl⟩
abbrev main_v35 : Ref sig .tc := ⟨.hbm, 55, rfl⟩
abbrev main_c_5 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_6 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_7 : Ref sig .tc := ⟨.hbm, 66, rfl⟩
abbrev main_v44 : Ref sig .tc := ⟨.hbm, 67, rfl⟩
abbrev main_cst_8 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_9 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_call1_cst : Ref sig .tc := ⟨.hbm, 84, rfl⟩
abbrev main_call1_v0 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_c_10 : Ref sig .tc := ⟨.hbm, 91, rfl⟩
abbrev main_v64 : Ref sig .tc := ⟨.hbm, 92, rfl⟩
abbrev main_v65 : Ref sig .tc := ⟨.hbm, 93, rfl⟩
abbrev main_c_11 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_12 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_13 : Ref sig .tc := ⟨.hbm, 104, rfl⟩
abbrev main_v74 : Ref sig .tc := ⟨.hbm, 105, rfl⟩
abbrev main_cst_14 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_15 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x32 : S_.BroadcastsInDim S100000x32 (![] : Fin 0 → Fin S100000x32.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  scatter_S100000_S1600000x1_S1600000_n_0_0_1_wf : ScatterDims.WF S100000 S1600000x1 S1600000 [] [0] [0] 1
  dot_S100000x32_S32x64_S100000x64_1_0_0_1_n_n_wf : DotDims.WF S100000x32 S32x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x1_S100000x1_1_0_0_1_n_n_wf : DotDims.WF S100000x64 S64x1 S100000x1 [1] [0] [0] [1] [] []

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.Spec.lean ====
/-
  One mean-aggregating graph-convolution layer as a function of its arrays, entry by entry, on the extended reals.

  For a node `r` with summed neighbour features `agg r ·`, own features `x r ·` and in-degree `cnt r`, output
  feature `j` is
      (Σ_k (agg r k / max (cnt r) 1) · Wl k j)  +  (Σ_k x r k · Wr k j)  +  b j,
  optionally clamped below at 0. The mean divides by `max cnt 1`, so an isolated node contributes a zero mean.
  Nothing here needs finiteness: the two programs compared against this function apply the same operations in
  the same grouping, and only the order inside each finite sum differs, which addition on the extended reals
  does not see.
-/
import Idealize.ShloMosaic.PureOps.Ideal
import Idealize.ShloMosaic.Lib.ValueIdx

noncomputable section

namespace Cert.Sage

open Idealize.ShloMosaic Idealize.ShloMosaic.ValueIdx
open scoped BigOperators

/-- The layer before the clamp, at node `r` and output feature `j`. The literal `0x3F800000` is the word of `1.0`;
    it is the same word in both programs and is never evaluated. -/
def denseAt {N K J : ℕ} (agg x : (⟨2, ![N, K]⟩ : Shape).Idx → EReal) (cnt : (⟨1, ![N]⟩ : Shape).Idx → EReal)
    (Wl Wr : (⟨2, ![K, J]⟩ : Shape).Idx → EReal) (b : (⟨1, ![J]⟩ : Shape).Idx → EReal) (r : Fin N) (j : Fin J) : EReal :=
  ((∑ k : Fin K, Ideal.div (agg (ix2 r k)) (max (cnt (ix1 r)) (Ideal.ofBits .f32 0x3F800000#32)) * Wl (ix2 k j))
    + (∑ k : Fin K, x (ix2 r k) * Wr (ix2 k j))) + b (ix1 j)

/-- The layer without a clamp, as a whole array. -/
def dense {N K J : ℕ} (agg x : (⟨2, ![N, K]⟩ : Shape).Idx → EReal) (cnt : (⟨1, ![N]⟩ : Shape).Idx → EReal)
    (Wl Wr : (⟨2, ![K, J]⟩ : Shape).Idx → EReal) (b : (⟨1, ![J]⟩ : Shape).Idx → EReal) :
    (⟨2, ![N, J]⟩ : Shape).Idx → EReal :=
  fun i => denseAt agg x cnt Wl Wr b (i 0) (i 1)

/-- The layer followed by the clamp at zero (the word `0x00000000` is `0.0`), as a whole array. -/
def denseRelu {N K J : ℕ} (agg x : (⟨2, ![N, K]⟩ : Shape).Idx → EReal) (cnt : (⟨1, ![N]⟩ : Shape).Idx → EReal)
    (Wl Wr : (⟨2, ![K, J]⟩ : Shape).Idx → EReal) (b : (⟨1, ![J]⟩ : Shape).Idx → EReal) :
    (⟨2, ![N, J]⟩ : Shape).Idx → EReal :=
  fun i => max (denseAt agg x cnt Wl Wr b (i 0) (i 1)) (Ideal.ofBits .f32 0x00000000#32)

/-- A one-column array read as the vector of its rows. -/
def colOf {N : ℕ} (c2 : (⟨2, ![N, 1]⟩ : Shape).Idx → EReal) : (⟨1, ![N]⟩ : Shape).Idx → EReal :=
  fun i => c2 (ix2 (i 0) (0 : Fin 1))

/-- A one-row array read as the vector of its columns. -/
def rowOf {J : ℕ} (b2 : (⟨2, ![1, J]⟩ : Shape).Idx → EReal) : (⟨1, ![J]⟩ : Shape).Idx → EReal :=
  fun i => b2 (ix2 (0 : Fin 1) (i 0))

theorem dense_apply {N K J : ℕ} (agg x : (⟨2, ![N, K]⟩ : Shape).Idx → EReal) (cnt : (⟨1, ![N]⟩ : Shape).Idx → EReal)
    (Wl Wr : (⟨2, ![K, J]⟩ : Shape).Idx → EReal) (b : (⟨1, ![J]⟩ : Shape).Idx → EReal) (r : Fin N) (j : Fin J) :
    dense agg x cnt Wl Wr b (ix2 r j) = denseAt agg x cnt Wl Wr b r j := rfl

theorem denseRelu_apply {N K J : ℕ} (agg x : (⟨2, ![N, K]⟩ : Shape).Idx → EReal) (cnt : (⟨1, ![N]⟩ : Shape).Idx → EReal)
    (Wl Wr : (⟨2, ![K, J]⟩ : Shape).Idx → EReal) (b : (⟨1, ![J]⟩ : Shape).Idx → EReal) (r : Fin N) (j : Fin J) :
    denseRelu agg x cnt Wl Wr b (ix2 r j) = max (denseAt agg x cnt Wl Wr b r j) (Ideal.ofBits .f32 0x00000000#32) := rfl

theorem colOf_apply {N : ℕ} (c2 : (⟨2, ![N, 1]⟩ : Shape).Idx → EReal) (r : Fin N) : colOf c2 (ix1 r) = c2 (ix2 r (0 : Fin 1)) := rfl

theorem rowOf_apply {J : ℕ} (b2 : (⟨2, ![1, J]⟩ : Shape).Idx → EReal) (j : Fin J) : rowOf b2 (ix1 j) = b2 (ix2 (0 : Fin 1) j) := rfl

end Cert.Sage

end
-- ==== Proof.LibColumn.lean ====
/-
  Column forms of the keep-dimension layout operations, read at an index: a vector of `a` entries reshaped to
  an `[a, 1]` column holds, in row `i`, entry `i`; and an `[a, 1]` column broadcast along the second axis to
  `[a, b]` holds, at `(p, c)`, the column's entry of row `p`, whatever `c`. (The row forms `[a] → [1, a]` and
  `[1, b] → [a, b]` are the library's `shapeCast_a_1a_apply` and `broadcastTo_1b_ab_apply`.) Stated for every
  extent and every element type.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.KernelRegion0.lean ====
/-
  Region 0 of the kernel's program (input feature count 32, output feature count 64, clamp at zero): the array
  its output window ends holding is the mean-aggregating layer `Cert.Sage.denseRelu` of the arrays the region finds.

  A grid point `t` (of 25) handles rows `4000 t … 4000 t + 3999`: it reads those rows of the summed neighbour
  features, of the node features and of the in-degree column, the two weight matrices and the bias row whole, and
  writes those rows of the output. Inside the block, entry `(p, q)` is
      (Σ_k (agg p k / max (cnt p) 1) · Wl k q) + (Σ_k x p k · Wr k q) + b q,  clamped below at 0
  (each matrix product into a zero accumulator is the plain sum over the contracted axis; the changes of float
  format are the identity on the extended reals). The 25 row blocks tile the 100000 rows, so the whole output
  array is the layer.
-/
import proofs.«176463_j83623013253774_1_alg».proof.Proof.Gen.KernelIdeal.Frame
import proofs.«176463_j83623013253774_1_alg».proof.Proof.Spec
import proofs.«176463_j83623013253774_1_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen Idealize.ShloMosaic Idealize.ShloMosaic.TcCoe Idealize.ShloMosaic.ValueIdx
open Idealize.ShloMosaic.Pipeline (Dat)
open scoped BigOperators

/-! ## The matrix product at an entry -/

theorem lhs_ax0 (i : S4000x64.Idx) (q : dot_S4000x32_S32x64_S4000x64_1_0_0_1_n_n.contr.Idx) :
    (dot_S4000x32_S32x64_S4000x64_1_0_0_1_n_n.lhsIdx i q 0).val = (i 0).val := by
  unfold DotDims.lhsIdx
  rw [dif_neg (show ¬(0 : Fin S4000x32.rank) ∈ dot_S4000x32_S32x64_S4000x64_1_0_0_1_n_n.lhsBatch by decide), dif_pos (show (0 : Fin S4000x32.rank) ∈ dot_S4000x32_S32x64_S4000x64_1_0_0_1_n_n.lhsNonContracting by decide)]
  rfl
theorem lhs_ax1 (i : S4000x64.Idx) (q : dot_S4000x32_S32x64_S4000x64_1_0_0_1_n_n.contr.Idx) :
    (dot_S4000x32_S32x64_S4000x64_1_0_0_1_n_n.lhsIdx i q 1).val = (q ⟨0, by decide⟩).val :=
  dot_S4000x32_S32x64_S4000x64_1_0_0_1_n_n.lhsIdx_val_of_single rfl i q
theorem rhs_ax0 (i : S4000x64.Idx) (q : dot_S4000x32_S32x64_S4000x64_1_0_0_1_n_n.contr.Idx) :
    (dot_S4000x32_S32x64_S4000x64_1_0_0_1_n_n.rhsIdx i q 0).val = (q ⟨0, by decide⟩).val :=
  dot_S4000x32_S32x64_S4000x64_1_0_0_1_n_n.rhsIdx_val_of_single rfl i q
theorem rhs_ax1 (i : S4000x64.Idx) (q : dot_S4000x32_S32x64_S4000x64_1_0_0_1_n_n.contr.Idx) :
    (dot_S4000x32_S32x64_S4000x64_1_0_0_1_n_n.rhsIdx i q 1).val = (i 1).val := by
  unfold DotDims.rhsIdx
  rw [dif_neg (show ¬(1 : Fin S32x64.rank) ∈ dot_S4000x32_S32x64_S4000x64_1_0_0_1_n_n.rhsBatch by decide), dif_pos (show (1 : Fin S32x64.rank) ∈ dot_S4000x32_S32x64_S4000x64_1_0_0_1_n_n.rhsNonContracting by decide)]
  rfl

/-- A block's matrix product into the zero accumulator, at entry `(p, q)`: the sum over the 32 contracted
    features of row `p` of the left factor against column `q` of the right. -/
theorem matmul_at {φ₁ φ₂ : FTy} (l : FVec Ideal S4000x32 φ₁) (r : FVec Ideal S32x64 φ₂) (p : Fin 4000) (q : Fin 64) :
    matmul dot_S4000x32_S32x64_S4000x64_1_0_0_1_n_n none l r (constant S4000x64 .f32 0x00000000#32) (ix2 p q)
      = ∑ k : Fin 32, l (ix2 p k) * r (ix2 k q) := by
  simp only [matmul]
  rw [Ideal.matmul_constant_zero_apply, ← Equiv.sum_comp (ValueIdx.contrEquiv1 dot_S4000x32_S32x64_S4000x64_1_0_0_1_n_n 32 rfl rfl).symm]
  refine Finset.sum_congr rfl fun k _ => ?_
  have hk := ValueIdx.contrEquiv1_symm_val dot_S4000x32_S32x64_S4000x64_1_0_0_1_n_n 32 rfl rfl k
  have el : dot_S4000x32_S32x64_S4000x64_1_0_0_1_n_n.lhsIdx (ix2 p q) ((ValueIdx.contrEquiv1 dot_S4000x32_S32x64_S4000x64_1_0_0_1_n_n 32 rfl rfl).symm k) = ix2 p k := funext fun a => Fin.ext (by
    match a with
    | ⟨0, _⟩ => exact lhs_ax0 _ _
    | ⟨1, _⟩ => exact (lhs_ax1 _ _).trans hk)
  have er : dot_S4000x32_S32x64_S4000x64_1_0_0_1_n_n.rhsIdx (ix2 p q) ((ValueIdx.contrEquiv1 dot_S4000x32_S32x64_S4000x64_1_0_0_1_n_n 32 rfl rfl).symm k) = ix2 k q := funext fun a => Fin.ext (by
    match a with
    | ⟨0, _⟩ => exact (rhs_ax0 _ _).trans hk
    | ⟨1, _⟩ => exact rhs_ax1 _ _)
  rw [el, er]

/-! ## The body's stored value at an entry of the block -/

/-- Entry `(p, q)` of what the body stores, from the blocks it loaded. -/
theorem pay_at (v0 : Vec Ideal S4000x1 .f32) (v2 v9 : Vec Ideal S4000x32 .f32) (v11 v13 : Vec Ideal S32x64 .f32)
    (v18 : Vec Ideal S1x64 .f32) (p : Fin 4000) (q : Fin 64) :
    k0_pay1 v0 v2 v9 v11 v13 v18 (ix2 p q)
      = max (((∑ k : Fin 32, Ideal.div (v2 (ix2 p k)) (max (v0 (ix2 p (0 : Fin 1))) (Ideal.ofBits .f32 0x3F800000#32)) * v11 (ix2 k q))
          + (∑ k : Fin 32, v9 (ix2 p k) * v13 (ix2 k q))) + v18 (ix2 (0 : Fin 1) q)) (Ideal.ofBits .f32 0x00000000#32) := by
  unfold k0_pay1
  simp only [shapeCast_self, maximumf_apply, addf_apply, broadcast_apply, matmul_at, broadcastTo_1b_ab_apply, truncf_apply,
    divf_apply, Cert.LibColumn.broadcastTo_a1_ab_apply, Ideal.ofBits_def]

/-! ## From blocks to the array -/

section Blocks

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the three row-blocked inputs and the output sit at block row `t`, block
    column 0; the weights and the bias are always block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem point_lt (t : Fin cfg0.N) : t.val < 25 := lt_of_lt_of_eq t.isLt N_0

/-- The array row that row `p` of block `t` is. -/
def row (t : Fin cfg0.N) (p : Fin 4000) : Fin 100000 := ⟨t.val * 4000 + p.val, by have := point_lt t; omega⟩

/-- The arrays the region finds, at their literal types. -/
abbrev aggArr (c : Dev nD) : Vec Ideal S100000x32 .f32 := V c main_v18
abbrev xArr (c : Dev nD) : Vec Ideal S100000x32 .f32 := V c main_arg0
abbrev cntArr (c : Dev nD) : Vec Ideal S100000x1 .f32 := V c main_v8
abbrev wlArr (c : Dev nD) : Vec Ideal S32x64 .f32 := V c main_arg2
abbrev wrArr (c : Dev nD) : Vec Ideal S32x64 .f32 := V c main_arg3
abbrev bArr (c : Dev nD) : Vec Ideal S1x64 .f32 := V c main_v19

/-- The layer of the arrays the region finds. -/
abbrev layer (c : Dev nD) : Vec Ideal S100000x64 .f32 :=
  Cert.Sage.denseRelu (aggArr V c) (xArr V c) (Cert.Sage.colOf (cntArr V c)) (wlArr V c) (wrArr V c) (Cert.Sage.rowOf (bArr V c))

/-! Each input window's block at point `t`, entry by entry, as entries of its array. -/

theorem read_agg (c : Dev nD) (t : Fin cfg0.N) (y : S4000x32.Idx) (i : S100000x32.Idx)
    (h0 : (i 0).val = t.val * 4000 + (y 0).val) (h1 : (i 1).val = (y 1).val) :
    (iblk0 V c 0 t : Vec Ideal S4000x32 .f32) y = aggArr V c i := by
  obtain ⟨e0, e1, -⟩ := idx_facts t
  unfold iblk0
  rw [View.read_apply]
  show V c main_v18 _ = V c main_v18 i
  refine congrArg _ (funext fun a => Fin.ext ?_)
  match a with
  | ⟨0, _⟩ => show win0_0.index t (0 : Fin 2) * 4000 + 1 * (y 0).val = (i 0).val; rw [e0, h0]; omega
  | ⟨1, _⟩ => show win0_0.index t (1 : Fin 2) * 32 + 1 * (y 1).val = (i 1).val; rw [e1, h1]; omega

theorem read_x (c : Dev nD) (t : Fin cfg0.N) (y : S4000x32.Idx) (i : S100000x32.Idx)
    (h0 : (i 0).val = t.val * 4000 + (y 0).val) (h1 : (i 1).val = (y 1).val) :
    (iblk0 V c 1 t : Vec Ideal S4000x32 .f32) y = xArr V c i := by
  obtain ⟨-, -, e0, e1, -⟩ := idx_facts t
  unfold iblk0
  rw [View.read_apply]
  show V c main_arg0 _ = V c main_arg0 i
  refine congrArg _ (funext fun a => Fin.ext ?_)
  match a with
  | ⟨0, _⟩ => show win0_1.index t (0 : Fin 2) * 4000 + 1 * (y 0).val = (i 0).val; rw [e0, h0]; omega
  | ⟨1, _⟩ => show win0_1.index t (1 : Fin 2) * 32 + 1 * (y 1).val = (i 1).val; rw [e1, h1]; omega

theorem read_cnt (c : Dev nD) (t : Fin cfg0.N) (y : S4000x1.Idx) (i : S100000x1.Idx)
    (h0 : (i 0).val = t.val * 4000 + (y 0).val) (h1 : (i 1).val = (y 1).val) :
    (iblk0 V c 2 t : Vec Ideal S4000x1 .f32) y = cntArr V c i := by
  obtain ⟨-, -, -, -, e0, e1, -⟩ := idx_facts t
  unfold iblk0
  rw [View.read_apply]
  show V c main_v8 _ = V c main_v8 i
  refine congrArg _ (funext fun a => Fin.ext ?_)
  match a with
  | ⟨0, _⟩ => show win0_2.index t (0 : Fin 2) * 4000 + 1 * (y 0).val = (i 0).val; rw [e0, h0]; omega
  | ⟨1, _⟩ => show win0_2.index t (1 : Fin 2) * 1 + 1 * (y 1).val = (i 1).val; rw [e1, h1]; omega

theorem read_wl (c : Dev nD) (t : Fin cfg0.N) (y : S32x64.Idx) :
    (iblk0 V c 3 t : Vec Ideal S32x64 .f32) y = wlArr V c y := by
  obtain ⟨-, -, -, -, -, -, e0, e1, -⟩ := idx_facts t
  unfold iblk0
  rw [View.read_apply]
  show V c main_arg2 _ = V c main_arg2 y
  refine congrArg _ (funext fun a => Fin.ext ?_)
  match a with
  | ⟨0, _⟩ => show win0_3.index t (0 : Fin 2) * 32 + 1 * (y 0).val = (y 0).val; rw [e0]; omega
  | ⟨1, _⟩ => show win0_3.index t (1 : Fin 2) * 64 + 1 * (y 1).val = (y 1).val; rw [e1]; omega

theorem read_wr (c : Dev nD) (t : Fin cfg0.N) (y : S32x64.Idx) :
    (iblk0 V c 4 t : Vec Ideal S32x64 .f32) y = wrArr V c y := by
  obtain ⟨-, -, -, -, -, -, -, -, e0, e1, -⟩ := idx_facts t
  unfold iblk0
  rw [View.read_apply]
  show V c main_arg3 _ = V c main_arg3 y
  refine congrArg _ (funext fun a => Fin.ext ?_)
  match a with
  | ⟨0, _⟩ => show win0_4.index t (0 : Fin 2) * 32 + 1 * (y 0).val = (y 0).val; rw [e0]; omega
  | ⟨1, _⟩ => show win0_4.index t (1 : Fin 2) * 64 + 1 * (y 1).val = (y 1).val; rw [e1]; omega

theorem read_b (c : Dev nD) (t : Fin cfg0.N) (y : S1x64.Idx) :
    (iblk0 V c 5 t : Vec Ideal S1x64 .f32) y = bArr V c y := by
  obtain ⟨-, -, -, -, -, -, -, -, -, -, e0, e1, -⟩ := idx_facts t
  unfold iblk0
  rw [View.read_apply]
  show V c main_v19 _ = V c main_v19 y
  refine congrArg _ (funext fun a => Fin.ext ?_)
  match a with
  | ⟨0, _⟩ => show win0_5.index t (0 : Fin 2) * 1 + 1 * (y 0).val = (y 0).val; rw [e0]; omega
  | ⟨1, _⟩ => show win0_5.index t (1 : Fin 2) * 64 + 1 * (y 1).val = (y 1).val; rw [e1]; omega

/-- What point `t` writes back is block `t` of the layer. -/
theorem flushed_eq (c : Dev nD) (t : Fin cfg0.N) :
    (dat0 V c).flushed 6 t = ((cfg0.win 6).blk t).view.read (Elt Ideal) (layer V c) := by
  show (cfg0.win 6).cut (grid0.coords t) ((dat0 V c).after 6 t) = _
  rw [after0_6]
  unfold out0_6
  rw [View.canon_unit_zero hz]
  simp only [View.ld_unit_zero (S := S4000x32) hz, View.ld_unit_zero (S := S4000x1) hz, View.ld_unit_zero (S := S32x64) hz, View.ld_unit_zero (S := S1x64) hz]
  funext j
  obtain ⟨p, q, rfl⟩ : ∃ (p : Fin 4000) (q : Fin 64), j = ix2 p q := ⟨j 0, j 1, eq_ix2 j⟩
  show k0_pay1 (iblk0 V c 2 t) (iblk0 V c 0 t) (iblk0 V c 1 t) (iblk0 V c 3 t) (iblk0 V c 4 t) (iblk0 V c 5 t) (ix2 p q)
    = layer V c (((cfg0.win 6).blk t).view.emb (ix2 p q))
  refine (pay_at (iblk0 V c 2 t) (iblk0 V c 0 t) (iblk0 V c 1 t) (iblk0 V c 3 t) (iblk0 V c 4 t) (iblk0 V c 5 t) p q).trans ?_
  have hemb : ((cfg0.win 6).blk t).view.emb (ix2 p q) = (ix2 (row t p) q : S100000x64.Idx) := funext fun a => Fin.ext (by
    obtain ⟨-, -, -, -, -, -, -, -, -, -, -, -, e0, e1⟩ := idx_facts t
    match a with
    | ⟨0, _⟩ => show win0_6.index t (0 : Fin 2) * 4000 + 1 * p.val = t.val * 4000 + p.val; rw [e0]; omega
    | ⟨1, _⟩ => show win0_6.index t (1 : Fin 2) * 64 + 1 * q.val = q.val; rw [e1]; omega)
  rw [hemb]
  show _ = max (Cert.Sage.denseAt (aggArr V c) (xArr V c) (Cert.Sage.colOf (cntArr V c)) (wlArr V c) (wrArr V c) (Cert.Sage.rowOf (bArr V c)) (row t p) q) _
  unfold Cert.Sage.denseAt
  refine congrArg₂ max (congrArg₂ (· + ·) (congrArg₂ (· + ·) (Finset.sum_congr rfl fun k _ => ?_) (Finset.sum_congr rfl fun k _ => ?_)) ?_) rfl
  · rw [read_agg V c t (ix2 p k) (ix2 (row t p) k) rfl rfl, read_cnt V c t (ix2 p (0 : Fin 1)) (ix2 (row t p) (0 : Fin 1)) rfl rfl, read_wl V c t (ix2 k q)]
    rfl
  · rw [read_x V c t (ix2 p k) (ix2 (row t p) k) rfl rfl, read_wr V c t (ix2 k q)]
  · rw [read_b V c t (ix2 (0 : Fin 1) q)]
    rfl

/-- The 25 row blocks tile the array, so the output array ends holding the layer. -/
theorem final (c : Dev nD) : (dat0 V c).arrAt 6 cfg0.N = layer V c :=
  (dat0 V c).arrAt_eq_of_cover 6 (layer V c) (fun t _ => flushed_eq V c t) fun i => by
    have hi0 : (i 0).val < 100000 := ValueIdx.idx2_lt0 i
    have hi1 : (i 1).val < 64 := ValueIdx.idx2_lt1 i
    have hN : cfg0.N = 25 := N_0
    obtain ⟨t0, ht0⟩ : ∃ t0 : Fin cfg0.N, t0.val = (i 0).val / 4000 := ⟨⟨(i 0).val / 4000, by rw [hN]; omega⟩, rfl⟩
    refine ⟨t0, flush0_6 t0, ?_⟩
    show i ∈ ((View.whole main_v20).slice (win0_6.rect t0)).set
    rw [View.set_slice_whole, Rect.mem_set_unit]
    intro a
    obtain ⟨-, -, -, -, -, -, -, -, -, -, -, -, e0, e1⟩ := idx_facts t0
    match a with
    | ⟨0, _⟩ =>
      show win0_6.index t0 (0 : Fin 2) * 4000 ≤ (i 0).val ∧ (i 0).val < win0_6.index t0 (0 : Fin 2) * 4000 + 4000
      rw [e0, ht0]; omega
    | ⟨1, _⟩ =>
      show win0_6.index t0 (1 : Fin 2) * 64 ≤ (i 1).val ∧ (i 1).val < win0_6.index t0 (1 : Fin 2) * 64 + 64
      rw [e1]; omega

end Blocks

end Cert.KernelIdeal.Region0

end
-- ==== Proof.KernelRegion1.lean ====
/-
  Region 1 of the kernel's program (input feature count 64, output feature count 64, clamp at zero): the array
  its output window ends holding is the mean-aggregating layer `Cert.Sage.denseRelu` of the arrays the region finds.

  A grid point `t` (of 25) handles rows `4000 t … 4000 t + 3999`: it reads those rows of the summed neighbour
  features, of the node features and of the in-degree column, the two weight matrices and the bias row whole, and
  writes those rows of the output. Inside the block, entry `(p, q)` is
      (Σ_k (agg p k / max (cnt p) 1) · Wl k q) + (Σ_k x p k · Wr k q) + b q,  clamped below at 0
  (each matrix product into a zero accumulator is the plain sum over the contracted axis; the changes of float
  format are the identity on the extended reals). The 25 row blocks tile the 100000 rows, so the whole output
  array is the layer.
-/
import proofs.«176463_j83623013253774_1_alg».proof.Proof.Gen.KernelIdeal.Frame
import proofs.«176463_j83623013253774_1_alg».proof.Proof.Spec
import proofs.«176463_j83623013253774_1_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen Idealize.ShloMosaic Idealize.ShloMosaic.TcCoe Idealize.ShloMosaic.ValueIdx
open Idealize.ShloMosaic.Pipeline (Dat)
open scoped BigOperators

/-! ## The matrix product at an entry -/

theorem lhs_ax0 (i : S4000x64.Idx) (q : dot_S4000x64_S64x64_S4000x64_1_0_0_1_n_n.contr.Idx) :
    (dot_S4000x64_S64x64_S4000x64_1_0_0_1_n_n.lhsIdx i q 0).val = (i 0).val := by
  unfold DotDims.lhsIdx
  rw [dif_neg (show ¬(0 : Fin S4000x64.rank) ∈ dot_S4000x64_S64x64_S4000x64_1_0_0_1_n_n.lhsBatch by decide), dif_pos (show (0 : Fin S4000x64.rank) ∈ dot_S4000x64_S64x64_S4000x64_1_0_0_1_n_n.lhsNonContracting by decide)]
  rfl
theorem lhs_ax1 (i : S4000x64.Idx) (q : dot_S4000x64_S64x64_S4000x64_1_0_0_1_n_n.contr.Idx) :
    (dot_S4000x64_S64x64_S4000x64_1_0_0_1_n_n.lhsIdx i q 1).val = (q ⟨0, by decide⟩).val :=
  dot_S4000x64_S64x64_S4000x64_1_0_0_1_n_n.lhsIdx_val_of_single rfl i q
theorem rhs_ax0 (i : S4000x64.Idx) (q : dot_S4000x64_S64x64_S4000x64_1_0_0_1_n_n.contr.Idx) :
    (dot_S4000x64_S64x64_S4000x64_1_0_0_1_n_n.rhsIdx i q 0).val = (q ⟨0, by decide⟩).val :=
  dot_S4000x64_S64x64_S4000x64_1_0_0_1_n_n.rhsIdx_val_of_single rfl i q
theorem rhs_ax1 (i : S4000x64.Idx) (q : dot_S4000x64_S64x64_S4000x64_1_0_0_1_n_n.contr.Idx) :
    (dot_S4000x64_S64x64_S4000x64_1_0_0_1_n_n.rhsIdx i q 1).val = (i 1).val := by
  unfold DotDims.rhsIdx
  rw [dif_neg (show ¬(1 : Fin S64x64.rank) ∈ dot_S4000x64_S64x64_S4000x64_1_0_0_1_n_n.rhsBatch by decide), dif_pos (show (1 : Fin S64x64.rank) ∈ dot_S4000x64_S64x64_S4000x64_1_0_0_1_n_n.rhsNonContracting by decide)]
  rfl

/-- A block's matrix product into the zero accumulator, at entry `(p, q)`: the sum over the 64 contracted
    features of row `p` of the left factor against column `q` of the right. -/
theorem matmul_at {φ₁ φ₂ : FTy} (l : FVec Ideal S4000x64 φ₁) (r : FVec Ideal S64x64 φ₂) (p : Fin 4000) (q : Fin 64) :
    matmul dot_S4000x64_S64x64_S4000x64_1_0_0_1_n_n none l r (constant S4000x64 .f32 0x00000000#32) (ix2 p q)
      = ∑ k : Fin 64, l (ix2 p k) * r (ix2 k q) := by
  simp only [matmul]
  rw [Ideal.matmul_constant_zero_apply, ← Equiv.sum_comp (ValueIdx.contrEquiv1 dot_S4000x64_S64x64_S4000x64_1_0_0_1_n_n 64 rfl rfl).symm]
  refine Finset.sum_congr rfl fun k _ => ?_
  have hk := ValueIdx.contrEquiv1_symm_val dot_S4000x64_S64x64_S4000x64_1_0_0_1_n_n 64 rfl rfl k
  have el : dot_S4000x64_S64x64_S4000x64_1_0_0_1_n_n.lhsIdx (ix2 p q) ((ValueIdx.contrEquiv1 dot_S4000x64_S64x64_S4000x64_1_0_0_1_n_n 64 rfl rfl).symm k) = ix2 p k := funext fun a => Fin.ext (by
    match a with
    | ⟨0, _⟩ => exact lhs_ax0 _ _
    | ⟨1, _⟩ => exact (lhs_ax1 _ _).trans hk)
  have er : dot_S4000x64_S64x64_S4000x64_1_0_0_1_n_n.rhsIdx (ix2 p q) ((ValueIdx.contrEquiv1 dot_S4000x64_S64x64_S4000x64_1_0_0_1_n_n 64 rfl rfl).symm k) = ix2 k q := funext fun a => Fin.ext (by
    match a with
    | ⟨0, _⟩ => exact (rhs_ax0 _ _).trans hk
    | ⟨1, _⟩ => exact rhs_ax1 _ _)
  rw [el, er]

/-! ## The body's stored value at an entry of the block -/

/-- Entry `(p, q)` of what the body stores, from the blocks it loaded. -/
theorem pay_at (v0 : Vec Ideal S4000x1 .f32) (v2 v9 : Vec Ideal S4000x64 .f32) (v11 v13 : Vec Ideal S64x64 .f32)
    (v18 : Vec Ideal S1x64 .f32) (p : Fin 4000) (q : Fin 64) :
    k1_pay1 v0 v2 v9 v11 v13 v18 (ix2 p q)
      = max (((∑ k : Fin 64, Ideal.div (v2 (ix2 p k)) (max (v0 (ix2 p (0 : Fin 1))) (Ideal.ofBits .f32 0x3F800000#32)) * v11 (ix2 k q))
          + (∑ k : Fin 64, v9 (ix2 p k) * v13 (ix2 k q))) + v18 (ix2 (0 : Fin 1) q)) (Ideal.ofBits .f32 0x00000000#32) := by
  unfold k1_pay1
  simp only [shapeCast_self, maximumf_apply, addf_apply, broadcast_apply, matmul_at, broadcastTo_1b_ab_apply, truncf_apply,
    divf_apply, Cert.LibColumn.broadcastTo_a1_ab_apply, Ideal.ofBits_def]

/-! ## From blocks to the array -/

section Blocks

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the three row-blocked inputs and the output sit at block row `t`, block
    column 0; the weights and the bias are always block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

theorem point_lt (t : Fin cfg1.N) : t.val < 25 := lt_of_lt_of_eq t.isLt N_1

/-- The array row that row `p` of block `t` is. -/
def row (t : Fin cfg1.N) (p : Fin 4000) : Fin 100000 := ⟨t.val * 4000 + p.val, by have := point_lt t; omega⟩

/-- The arrays the region finds, at their literal types. -/
abbrev aggArr (c : Dev nD) : Vec Ideal S100000x64 .f32 := V c main_v30
abbrev xArr (c : Dev nD) : Vec Ideal S100000x64 .f32 := V c main_v20
abbrev cntArr (c : Dev nD) : Vec Ideal S100000x1 .f32 := V c main_v8
abbrev wlArr (c : Dev nD) : Vec Ideal S64x64 .f32 := V c main_arg5
abbrev wrArr (c : Dev nD) : Vec Ideal S64x64 .f32 := V c main_arg6
abbrev bArr (c : Dev nD) : Vec Ideal S1x64 .f32 := V c main_v31

/-- The layer of the arrays the region finds. -/
abbrev layer (c : Dev nD) : Vec Ideal S100000x64 .f32 :=
  Cert.Sage.denseRelu (aggArr V c) (xArr V c) (Cert.Sage.colOf (cntArr V c)) (wlArr V c) (wrArr V c) (Cert.Sage.rowOf (bArr V c))

/-! Each input window's block at point `t`, entry by entry, as entries of its array. -/

theorem read_agg (c : Dev nD) (t : Fin cfg1.N) (y : S4000x64.Idx) (i : S100000x64.Idx)
    (h0 : (i 0).val = t.val * 4000 + (y 0).val) (h1 : (i 1).val = (y 1).val) :
    (iblk1 V c 0 t : Vec Ideal S4000x64 .f32) y = aggArr V c i := by
  obtain ⟨e0, e1, -⟩ := idx_facts t
  unfold iblk1
  rw [View.read_apply]
  show V c main_v30 _ = V c main_v30 i
  refine congrArg _ (funext fun a => Fin.ext ?_)
  match a with
  | ⟨0, _⟩ => show win1_0.index t (0 : Fin 2) * 4000 + 1 * (y 0).val = (i 0).val; rw [e0, h0]; omega
  | ⟨1, _⟩ => show win1_0.index t (1 : Fin 2) * 64 + 1 * (y 1).val = (i 1).val; rw [e1, h1]; omega

theorem read_x (c : Dev nD) (t : Fin cfg1.N) (y : S4000x64.Idx) (i : S100000x64.Idx)
    (h0 : (i 0).val = t.val * 4000 + (y 0).val) (h1 : (i 1).val = (y 1).val) :
    (iblk1 V c 1 t : Vec Ideal S4000x64 .f32) y = xArr V c i := by
  obtain ⟨-, -, e0, e1, -⟩ := idx_facts t
  unfold iblk1
  rw [View.read_apply]
  show V c main_v20 _ = V c main_v20 i
  refine congrArg _ (funext fun a => Fin.ext ?_)
  match a with
  | ⟨0, _⟩ => show win1_1.index t (0 : Fin 2) * 4000 + 1 * (y 0).val = (i 0).val; rw [e0, h0]; omega
  | ⟨1, _⟩ => show win1_1.index t (1 : Fin 2) * 64 + 1 * (y 1).val = (i 1).val; rw [e1, h1]; omega

theorem read_cnt (c : Dev nD) (t : Fin cfg1.N) (y : S4000x1.Idx) (i : S100000x1.Idx)
    (h0 : (i 0).val = t.val * 4000 + (y 0).val) (h1 : (i 1).val = (y 1).val) :
    (iblk1 V c 2 t : Vec Ideal S4000x1 .f32) y = cntArr V c i := by
  obtain ⟨-, -, -, -, e0, e1, -⟩ := idx_facts t
  unfold iblk1
  rw [View.read_apply]
  show V c main_v8 _ = V c main_v8 i
  refine congrArg _ (funext fun a => Fin.ext ?_)
  match a with
  | ⟨0, _⟩ => show win1_2.index t (0 : Fin 2) * 4000 + 1 * (y 0).val = (i 0).val; rw [e0, h0]; omega
  | ⟨1, _⟩ => show win1_2.index t (1 : Fin 2) * 1 + 1 * (y 1).val = (i 1).val; rw [e1, h1]; omega

theorem read_wl (c : Dev nD) (t : Fin cfg1.N) (y : S64x64.Idx) :
    (iblk1 V c 3 t : Vec Ideal S64x64 .f32) y = wlArr V c y := by
  obtain ⟨-, -, -, -, -, -, e0, e1, -⟩ := idx_facts t
  unfold iblk1
  rw [View.read_apply]
  show V c main_arg5 _ = V c main_arg5 y
  refine congrArg _ (funext fun a => Fin.ext ?_)
  match a with
  | ⟨0, _⟩ => show win1_3.index t (0 : Fin 2) * 64 + 1 * (y 0).val = (y 0).val; rw [e0]; omega
  | ⟨1, _⟩ => show win1_3.index t (1 : Fin 2) * 64 + 1 * (y 1).val = (y 1).val; rw [e1]; omega

theorem read_wr (c : Dev nD) (t : Fin cfg1.N) (y : S64x64.Idx) :
    (iblk1 V c 4 t : Vec Ideal S64x64 .f32) y = wrArr V c y := by
  obtain ⟨-, -, -, -, -, -, -, -, e0, e1, -⟩ := idx_facts t
  unfold iblk1
  rw [View.read_apply]
  show V c main_arg6 _ = V c main_arg6 y
  refine congrArg _ (funext fun a => Fin.ext ?_)
  match a with
  | ⟨0, _⟩ => show win1_4.index t (0 : Fin 2) * 64 + 1 * (y 0).val = (y 0).val; rw [e0]; omega
  | ⟨1, _⟩ => show win1_4.index t (1 : Fin 2) * 64 + 1 * (y 1).val = (y 1).val; rw [e1]; omega

theorem read_b (c : Dev nD) (t : Fin cfg1.N) (y : S1x64.Idx) :
    (iblk1 V c 5 t : Vec Ideal S1x64 .f32) y = bArr V c y := by
  obtain ⟨-, -, -, -, -, -, -, -, -, -, e0, e1, -⟩ := idx_facts t
  unfold iblk1
  rw [View.read_apply]
  show V c main_v31 _ = V c main_v31 y
  refine congrArg _ (funext fun a => Fin.ext ?_)
  match a with
  | ⟨0, _⟩ => show win1_5.index t (0 : Fin 2) * 1 + 1 * (y 0).val = (y 0).val; rw [e0]; omega
  | ⟨1, _⟩ => show win1_5.index t (1 : Fin 2) * 64 + 1 * (y 1).val = (y 1).val; rw [e1]; omega

/-- What point `t` writes back is block `t` of the layer. -/
theorem flushed_eq (c : Dev nD) (t : Fin cfg1.N) :
    (dat1 V c).flushed 6 t = ((cfg1.win 6).blk t).view.read (Elt Ideal) (layer V c) := by
  show (cfg1.win 6).cut (grid1.coords t) ((dat1 V c).after 6 t) = _
  rw [after1_6]
  unfold out1_6
  rw [View.canon_unit_zero hz]
  simp only [View.ld_unit_zero (S := S4000x64) hz, View.ld_unit_zero (S := S4000x1) hz, View.ld_unit_zero (S := S64x64) hz, View.ld_unit_zero (S := S1x64) hz]
  funext j
  obtain ⟨p, q, rfl⟩ : ∃ (p : Fin 4000) (q : Fin 64), j = ix2 p q := ⟨j 0, j 1, eq_ix2 j⟩
  show k1_pay1 (iblk1 V c 2 t) (iblk1 V c 0 t) (iblk1 V c 1 t) (iblk1 V c 3 t) (iblk1 V c 4 t) (iblk1 V c 5 t) (ix2 p q)
    = layer V c (((cfg1.win 6).blk t).view.emb (ix2 p q))
  refine (pay_at (iblk1 V c 2 t) (iblk1 V c 0 t) (iblk1 V c 1 t) (iblk1 V c 3 t) (iblk1 V c 4 t) (iblk1 V c 5 t) p q).trans ?_
  have hemb : ((cfg1.win 6).blk t).view.emb (ix2 p q) = (ix2 (row t p) q : S100000x64.Idx) := funext fun a => Fin.ext (by
    obtain ⟨-, -, -, -, -, -, -, -, -, -, -, -, e0, e1⟩ := idx_facts t
    match a with
    | ⟨0, _⟩ => show win1_6.index t (0 : Fin 2) * 4000 + 1 * p.val = t.val * 4000 + p.val; rw [e0]; omega
    | ⟨1, _⟩ => show win1_6.index t (1 : Fin 2) * 64 + 1 * q.val = q.val; rw [e1]; omega)
  rw [hemb]
  show _ = max (Cert.Sage.denseAt (aggArr V c) (xArr V c) (Cert.Sage.colOf (cntArr V c)) (wlArr V c) (wrArr V c) (Cert.Sage.rowOf (bArr V c)) (row t p) q) _
  unfold Cert.Sage.denseAt
  refine congrArg₂ max (congrArg₂ (· + ·) (congrArg₂ (· + ·) (Finset.sum_congr rfl fun k _ => ?_) (Finset.sum_congr rfl fun k _ => ?_)) ?_) rfl
  · rw [read_agg V c t (ix2 p k) (ix2 (row t p) k) rfl rfl, read_cnt V c t (ix2 p (0 : Fin 1)) (ix2 (row t p) (0 : Fin 1)) rfl rfl, read_wl V c t (ix2 k q)]
    rfl
  · rw [read_x V c t (ix2 p k) (ix2 (row t p) k) rfl rfl, read_wr V c t (ix2 k q)]
  · rw [read_b V c t (ix2 (0 : Fin 1) q)]
    rfl

/-- The 25 row blocks tile the array, so the output array ends holding the layer. -/
theorem final (c : Dev nD) : (dat1 V c).arrAt 6 cfg1.N = layer V c :=
  (dat1 V c).arrAt_eq_of_cover 6 (layer V c) (fun t _ => flushed_eq V c t) fun i => by
    have hi0 : (i 0).val < 100000 := ValueIdx.idx2_lt0 i
    have hi1 : (i 1).val < 64 := ValueIdx.idx2_lt1 i
    have hN : cfg1.N = 25 := N_1
    obtain ⟨t0, ht0⟩ : ∃ t0 : Fin cfg1.N, t0.val = (i 0).val / 4000 := ⟨⟨(i 0).val / 4000, by rw [hN]; omega⟩, rfl⟩
    refine ⟨t0, flush1_6 t0, ?_⟩
    show i ∈ ((View.whole main_v32).slice (win1_6.rect t0)).set
    rw [View.set_slice_whole, Rect.mem_set_unit]
    intro a
    obtain ⟨-, -, -, -, -, -, -, -, -, -, -, -, e0, e1⟩ := idx_facts t0
    match a with
    | ⟨0, _⟩ =>
      show win1_6.index t0 (0 : Fin 2) * 4000 ≤ (i 0).val ∧ (i 0).val < win1_6.index t0 (0 : Fin 2) * 4000 + 4000
      rw [e0, ht0]; omega
    | ⟨1, _⟩ =>
      show win1_6.index t0 (1 : Fin 2) * 64 ≤ (i 1).val ∧ (i 1).val < win1_6.index t0 (1 : Fin 2) * 64 + 64
      rw [e1]; omega

end Blocks

end Cert.KernelIdeal.Region1

end
-- ==== Proof.KernelRegion2.lean ====
/-
  Region 2 of the kernel's program (input feature count 64, output feature count 1, no clamp): the array
  its output window ends holding is the mean-aggregating layer `Cert.Sage.dense` of the arrays the region finds.

  A grid point `t` (of 25) handles rows `4000 t … 4000 t + 3999`: it reads those rows of the summed neighbour
  features, of the node features and of the in-degree column, the two weight matrices and the bias row whole, and
  writes those rows of the output. Inside the block, entry `(p, q)` is
      (Σ_k (agg p k / max (cnt p) 1) · Wl k q) + (Σ_k x p k · Wr k q) + b q
  (each matrix product into a zero accumulator is the plain sum over the contracted axis; the changes of float
  format are the identity on the extended reals). The 25 row blocks tile the 100000 rows, so the whole output
  array is the layer.
-/
import proofs.«176463_j83623013253774_1_alg».proof.Proof.Gen.KernelIdeal.Frame
import proofs.«176463_j83623013253774_1_alg».proof.Proof.Spec
import proofs.«176463_j83623013253774_1_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Cert.KernelIdeal Cert.KernelIdeal.Gen Idealize.ShloMosaic Idealize.ShloMosaic.TcCoe Idealize.ShloMosaic.ValueIdx
open Idealize.ShloMosaic.Pipeline (Dat)
open scoped BigOperators

/-! ## The matrix product at an entry -/

theorem lhs_ax0 (i : S4000x1.Idx) (q : dot_S4000x64_S64x1_S4000x1_1_0_0_1_n_n.contr.Idx) :
    (dot_S4000x64_S64x1_S4000x1_1_0_0_1_n_n.lhsIdx i q 0).val = (i 0).val := by
  unfold DotDims.lhsIdx
  rw [dif_neg (show ¬(0 : Fin S4000x64.rank) ∈ dot_S4000x64_S64x1_S4000x1_1_0_0_1_n_n.lhsBatch by decide), dif_pos (show (0 : Fin S4000x64.rank) ∈ dot_S4000x64_S64x1_S4000x1_1_0_0_1_n_n.lhsNonContracting by decide)]
  rfl
theorem lhs_ax1 (i : S4000x1.Idx) (q : dot_S4000x64_S64x1_S4000x1_1_0_0_1_n_n.contr.Idx) :
    (dot_S4000x64_S64x1_S4000x1_1_0_0_1_n_n.lhsIdx i q 1).val = (q ⟨0, by decide⟩).val :=
  dot_S4000x64_S64x1_S4000x1_1_0_0_1_n_n.lhsIdx_val_of_single rfl i q
theorem rhs_ax0 (i : S4000x1.Idx) (q : dot_S4000x64_S64x1_S4000x1_1_0_0_1_n_n.contr.Idx) :
    (dot_S4000x64_S64x1_S4000x1_1_0_0_1_n_n.rhsIdx i q 0).val = (q ⟨0, by decide⟩).val :=
  dot_S4000x64_S64x1_S4000x1_1_0_0_1_n_n.rhsIdx_val_of_single rfl i q
theorem rhs_ax1 (i : S4000x1.Idx) (q : dot_S4000x64_S64x1_S4000x1_1_0_0_1_n_n.contr.Idx) :
    (dot_S4000x64_S64x1_S4000x1_1_0_0_1_n_n.rhsIdx i q 1).val = (i 1).val := by
  unfold DotDims.rhsIdx
  rw [dif_neg (show ¬(1 : Fin S64x1.rank) ∈ dot_S4000x64_S64x1_S4000x1_1_0_0_1_n_n.rhsBatch by decide), dif_pos (show (1 : Fin S64x1.rank) ∈ dot_S4000x64_S64x1_S4000x1_1_0_0_1_n_n.rhsNonContracting by decide)]
  rfl

/-- A block's matrix product into the zero accumulator, at entry `(p, q)`: the sum over the 64 contracted
    features of row `p` of the left factor against column `q` of the right. -/
theorem matmul_at {φ₁ φ₂ : FTy} (l : FVec Ideal S4000x64 φ₁) (r : FVec Ideal S64x1 φ₂) (p : Fin 4000) (q : Fin 1) :
    matmul dot_S4000x64_S64x1_S4000x1_1_0_0_1_n_n none l r (constant S4000x1 .f32 0x00000000#32) (ix2 p q)
      = ∑ k : Fin 64, l (ix2 p k) * r (ix2 k q) := by
  simp only [matmul]
  rw [Ideal.matmul_constant_zero_apply, ← Equiv.sum_comp (ValueIdx.contrEquiv1 dot_S4000x64_S64x1_S4000x1_1_0_0_1_n_n 64 rfl rfl).symm]
  refine Finset.sum_congr rfl fun k _ => ?_
  have hk := ValueIdx.contrEquiv1_symm_val dot_S4000x64_S64x1_S4000x1_1_0_0_1_n_n 64 rfl rfl k
  have el : dot_S4000x64_S64x1_S4000x1_1_0_0_1_n_n.lhsIdx (ix2 p q) ((ValueIdx.contrEquiv1 dot_S4000x64_S64x1_S4000x1_1_0_0_1_n_n 64 rfl rfl).symm k) = ix2 p k := funext fun a => Fin.ext (by
    match a with
    | ⟨0, _⟩ => exact lhs_ax0 _ _
    | ⟨1, _⟩ => exact (lhs_ax1 _ _).trans hk)
  have er : dot_S4000x64_S64x1_S4000x1_1_0_0_1_n_n.rhsIdx (ix2 p q) ((ValueIdx.contrEquiv1 dot_S4000x64_S64x1_S4000x1_1_0_0_1_n_n 64 rfl rfl).symm k) = ix2 k q := funext fun a => Fin.ext (by
    match a with
    | ⟨0, _⟩ => exact (rhs_ax0 _ _).trans hk
    | ⟨1, _⟩ => exact rhs_ax1 _ _)
  rw [el, er]

/-! ## The body's stored value at an entry of the block -/

/-- Entry `(p, q)` of what the body stores, from the blocks it loaded. -/
theorem pay_at (v0 : Vec Ideal S4000x1 .f32) (v2 v9 : Vec Ideal S4000x64 .f32) (v11 v13 : Vec Ideal S64x1 .f32)
    (v18 : Vec Ideal S1x1 .f32) (p : Fin 4000) (q : Fin 1) :
    k2_pay1 v0 v2 v9 v11 v13 v18 (ix2 p q)
      = (((∑ k : Fin 64, Ideal.div (v2 (ix2 p k)) (max (v0 (ix2 p (0 : Fin 1))) (Ideal.ofBits .f32 0x3F800000#32)) * v11 (ix2 k q))
          + (∑ k : Fin 64, v9 (ix2 p k) * v13 (ix2 k q))) + v18 (ix2 (0 : Fin 1) q)) := by
  unfold k2_pay1
  simp only [shapeCast_self, maximumf_apply, addf_apply, broadcast_apply, matmul_at, broadcastTo_1b_ab_apply, truncf_apply,
    divf_apply, Cert.LibColumn.broadcastTo_a1_ab_apply, Ideal.ofBits_def]

/-! ## From blocks to the array -/

section Blocks

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the three row-blocked inputs and the output sit at block row `t`, block
    column 0; the weights and the bias are always block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

theorem point_lt (t : Fin cfg2.N) : t.val < 25 := lt_of_lt_of_eq t.isLt N_2

/-- The array row that row `p` of block `t` is. -/
def row (t : Fin cfg2.N) (p : Fin 4000) : Fin 100000 := ⟨t.val * 4000 + p.val, by have := point_lt t; omega⟩

/-- The arrays the region finds, at their literal types. -/
abbrev aggArr (c : Dev nD) : Vec Ideal S100000x64 .f32 := V c main_v42
abbrev xArr (c : Dev nD) : Vec Ideal S100000x64 .f32 := V c main_v32
abbrev cntArr (c : Dev nD) : Vec Ideal S100000x1 .f32 := V c main_v8
abbrev wlArr (c : Dev nD) : Vec Ideal S64x1 .f32 := V c main_arg8
abbrev wrArr (c : Dev nD) : Vec Ideal S64x1 .f32 := V c main_arg9
abbrev bArr (c : Dev nD) : Vec Ideal S1x1 .f32 := V c main_v43

/-- The layer of the arrays the region finds. -/
abbrev layer (c : Dev nD) : Vec Ideal S100000x1 .f32 :=
  Cert.Sage.dense (aggArr V c) (xArr V c) (Cert.Sage.colOf (cntArr V c)) (wlArr V c) (wrArr V c) (Cert.Sage.rowOf (bArr V c))

/-! Each input window's block at point `t`, entry by entry, as entries of its array. -/

theorem read_agg (c : Dev nD) (t : Fin cfg2.N) (y : S4000x64.Idx) (i : S100000x64.Idx)
    (h0 : (i 0).val = t.val * 4000 + (y 0).val) (h1 : (i 1).val = (y 1).val) :
    (iblk2 V c 0 t : Vec Ideal S4000x64 .f32) y = aggArr V c i := by
  obtain ⟨e0, e1, -⟩ := idx_facts t
  unfold iblk2
  rw [View.read_apply]
  show V c main_v42 _ = V c main_v42 i
  refine congrArg _ (funext fun a => Fin.ext ?_)
  match a with
  | ⟨0, _⟩ => show win2_0.index t (0 : Fin 2) * 4000 + 1 * (y 0).val = (i 0).val; rw [e0, h0]; omega
  | ⟨1, _⟩ => show win2_0.index t (1 : Fin 2) * 64 + 1 * (y 1).val = (i 1).val; rw [e1, h1]; omega

theorem read_x (c : Dev nD) (t : Fin cfg2.N) (y : S4000x64.Idx) (i : S100000x64.Idx)
    (h0 : (i 0).val = t.val * 4000 + (y 0).val) (h1 : (i 1).val = (y 1).val) :
    (iblk2 V c 1 t : Vec Ideal S4000x64 .f32) y = xArr V c i := by
  obtain ⟨-, -, e0, e1, -⟩ := idx_facts t
  unfold iblk2
  rw [View.read_apply]
  show V c main_v32 _ = V c main_v32 i
  refine congrArg _ (funext fun a => Fin.ext ?_)
  match a with
  | ⟨0, _⟩ => show win2_1.index t (0 : Fin 2) * 4000 + 1 * (y 0).val = (i 0).val; rw [e0, h0]; omega
  | ⟨1, _⟩ => show win2_1.index t (1 : Fin 2) * 64 + 1 * (y 1).val = (i 1).val; rw [e1, h1]; omega

theorem read_cnt (c : Dev nD) (t : Fin cfg2.N) (y : S4000x1.Idx) (i : S100000x1.Idx)
    (h0 : (i 0).val = t.val * 4000 + (y 0).val) (h1 : (i 1).val = (y 1).val) :
    (iblk2 V c 2 t : Vec Ideal S4000x1 .f32) y = cntArr V c i := by
  obtain ⟨-, -, -, -, e0, e1, -⟩ := idx_facts t
  unfold iblk2
  rw [View.read_apply]
  show V c main_v8 _ = V c main_v8 i
  refine congrArg _ (funext fun a => Fin.ext ?_)
  match a with
  | ⟨0, _⟩ => show win2_2.index t (0 : Fin 2) * 4000 + 1 * (y 0).val = (i 0).val; rw [e0, h0]; omega
  | ⟨1, _⟩ => show win2_2.index t (1 : Fin 2) * 1 + 1 * (y 1).val = (i 1).val; rw [e1, h1]; omega

theorem read_wl (c : Dev nD) (t : Fin cfg2.N) (y : S64x1.Idx) :
    (iblk2 V c 3 t : Vec Ideal S64x1 .f32) y = wlArr V c y := by
  obtain ⟨-, -, -, -, -, -, e0, e1, -⟩ := idx_facts t
  unfold iblk2
  rw [View.read_apply]
  show V c main_arg8 _ = V c main_arg8 y
  refine congrArg _ (funext fun a => Fin.ext ?_)
  match a with
  | ⟨0, _⟩ => show win2_3.index t (0 : Fin 2) * 64 + 1 * (y 0).val = (y 0).val; rw [e0]; omega
  | ⟨1, _⟩ => show win2_3.index t (1 : Fin 2) * 1 + 1 * (y 1).val = (y 1).val; rw [e1]; omega

theorem read_wr (c : Dev nD) (t : Fin cfg2.N) (y : S64x1.Idx) :
    (iblk2 V c 4 t : Vec Ideal S64x1 .f32) y = wrArr V c y := by
  obtain ⟨-, -, -, -, -, -, -, -, e0, e1, -⟩ := idx_facts t
  unfold iblk2
  rw [View.read_apply]
  show V c main_arg9 _ = V c main_arg9 y
  refine congrArg _ (funext fun a => Fin.ext ?_)
  match a with
  | ⟨0, _⟩ => show win2_4.index t (0 : Fin 2) * 64 + 1 * (y 0).val = (y 0).val; rw [e0]; omega
  | ⟨1, _⟩ => show win2_4.index t (1 : Fin 2) * 1 + 1 * (y 1).val = (y 1).val; rw [e1]; omega

theorem read_b (c : Dev nD) (t : Fin cfg2.N) (y : S1x1.Idx) :
    (iblk2 V c 5 t : Vec Ideal S1x1 .f32) y = bArr V c y := by
  obtain ⟨-, -, -, -, -, -, -, -, -, -, e0, e1, -⟩ := idx_facts t
  unfold iblk2
  rw [View.read_apply]
  show V c main_v43 _ = V c main_v43 y
  refine congrArg _ (funext fun a => Fin.ext ?_)
  match a with
  | ⟨0, _⟩ => show win2_5.index t (0 : Fin 2) * 1 + 1 * (y 0).val = (y 0).val; rw [e0]; omega
  | ⟨1, _⟩ => show win2_5.index t (1 : Fin 2) * 1 + 1 * (y 1).val = (y 1).val; rw [e1]; omega

/-- What point `t` writes back is block `t` of the layer. -/
theorem flushed_eq (c : Dev nD) (t : Fin cfg2.N) :
    (dat2 V c).flushed 6 t = ((cfg2.win 6).blk t).view.read (Elt Ideal) (layer V c) := by
  show (cfg2.win 6).cut (grid2.coords t) ((dat2 V c).after 6 t) = _
  rw [after2_6]
  unfold out2_6
  rw [View.canon_unit_zero hz]
  simp only [View.ld_unit_zero (S := S4000x64) hz, View.ld_unit_zero (S := S4000x1) hz, View.ld_unit_zero (S := S64x1) hz, View.ld_unit_zero (S := S1x1) hz]
  funext j
  obtain ⟨p, q, rfl⟩ : ∃ (p : Fin 4000) (q : Fin 1), j = ix2 p q := ⟨j 0, j 1, eq_ix2 j⟩
  show k2_pay1 (iblk2 V c 2 t) (iblk2 V c 0 t) (iblk2 V c 1 t) (iblk2 V c 3 t) (iblk2 V c 4 t) (iblk2 V c 5 t) (ix2 p q)
    = layer V c (((cfg2.win 6).blk t).view.emb (ix2 p q))
  refine (pay_at (iblk2 V c 2 t) (iblk2 V c 0 t) (iblk2 V c 1 t) (iblk2 V c 3 t) (iblk2 V c 4 t) (iblk2 V c 5 t) p q).trans ?_
  have hemb : ((cfg2.win 6).blk t).view.emb (ix2 p q) = (ix2 (row t p) q : S100000x1.Idx) := funext fun a => Fin.ext (by
    obtain ⟨-, -, -, -, -, -, -, -, -, -, -, -, e0, e1⟩ := idx_facts t
    match a with
    | ⟨0, _⟩ => show win2_6.index t (0 : Fin 2) * 4000 + 1 * p.val = t.val * 4000 + p.val; rw [e0]; omega
    | ⟨1, _⟩ => show win2_6.index t (1 : Fin 2) * 1 + 1 * q.val = q.val; rw [e1]; omega)
  rw [hemb]
  show _ = Cert.Sage.denseAt (aggArr V c) (xArr V c) (Cert.Sage.colOf (cntArr V c)) (wlArr V c) (wrArr V c) (Cert.Sage.rowOf (bArr V c)) (row t p) q
  unfold Cert.Sage.denseAt
  refine congrArg₂ (· + ·) (congrArg₂ (· + ·) (Finset.sum_congr rfl fun k _ => ?_) (Finset.sum_congr rfl fun k _ => ?_)) ?_
  · rw [read_agg V c t (ix2 p k) (ix2 (row t p) k) rfl rfl, read_cnt V c t (ix2 p (0 : Fin 1)) (ix2 (row t p) (0 : Fin 1)) rfl rfl, read_wl V c t (ix2 k q)]
    rfl
  · rw [read_x V c t (ix2 p k) (ix2 (row t p) k) rfl rfl, read_wr V c t (ix2 k q)]
  · rw [read_b V c t (ix2 (0 : Fin 1) q)]
    rfl

/-- The 25 row blocks tile the array, so the output array ends holding the layer. -/
theorem final (c : Dev nD) : (dat2 V c).arrAt 6 cfg2.N = layer V c :=
  (dat2 V c).arrAt_eq_of_cover 6 (layer V c) (fun t _ => flushed_eq V c t) fun i => by
    have hi0 : (i 0).val < 100000 := ValueIdx.idx2_lt0 i
    have hi1 : (i 1).val < 1 := ValueIdx.idx2_lt1 i
    have hN : cfg2.N = 25 := N_2
    obtain ⟨t0, ht0⟩ : ∃ t0 : Fin cfg2.N, t0.val = (i 0).val / 4000 := ⟨⟨(i 0).val / 4000, by rw [hN]; omega⟩, rfl⟩
    refine ⟨t0, flush2_6 t0, ?_⟩
    show i ∈ ((View.whole main_v44).slice (win2_6.rect t0)).set
    rw [View.set_slice_whole, Rect.mem_set_unit]
    intro a
    obtain ⟨-, -, -, -, -, -, -, -, -, -, -, -, e0, e1⟩ := idx_facts t0
    match a with
    | ⟨0, _⟩ =>
      show win2_6.index t0 (0 : Fin 2) * 4000 ≤ (i 0).val ∧ (i 0).val < win2_6.index t0 (0 : Fin 2) * 4000 + 4000
      rw [e0, ht0]; omega
    | ⟨1, _⟩ =>
      show win2_6.index t0 (1 : Fin 2) * 1 ≤ (i 1).val ∧ (i 1).val < win2_6.index t0 (1 : Fin 2) * 1 + 1
      rw [e1]; omega

end Blocks

end Cert.KernelIdeal.Region2

end
-- ==== Proof.RefLayers.lean ====
/-
  The host program's three graph-convolution layers, each as ONE function of its arrays.

  A layer of the host program is a chain of elementwise and layout operations around two matrix products:
  the summed neighbour features are divided by the in-degree clamped below at one, multiplied by the first
  weight matrix, added to the node's own features times the second weight matrix, then the bias is added and
  (after the first two layers) the result is clamped below at zero. Reading every operation at an index
  (r, j) gives exactly the entry-by-entry formula of `Cert.Sage.denseAt`: the two products become the two
  finite sums over the input feature k, the broadcasts become reads of the in-degree at r and of the bias at j.
  The summed neighbour features and the in-degrees are produced by scatter-additions and enter only as arguments.
-/
import proofs.«176463_j83623013253774_1_alg».proof.Proof.Gen.ReferenceIdeal.Read
import proofs.«176463_j83623013253774_1_alg».proof.Proof.Spec

noncomputable section

namespace Cert.ReferenceIdeal.Layers

open Cert.ReferenceIdeal Cert.ReferenceIdeal.Read Idealize.ShloMosaic Idealize.ShloMosaic.ValueIdx
open scoped BigOperators

/-- Layer 0's mean, read at a node and an input feature: the summed neighbour feature over the in-degree clamped
    below at one. -/
theorem mean0 (x0 : (⟨S100000x32, .f32⟩ : BufTy).Contents (Elt Ideal)) (x1 : (⟨S2x1600000, .i32⟩ : BufTy).Contents (Elt Ideal))
    (r : Fin 100000) (k : Fin 32) :
    val_main_v22 (F := Ideal) x0 x1 (ix2 r k)
      = Ideal.div (val_main_v13 (F := Ideal) x0 x1 (ix2 r k))
          (max (val_main_v17 (F := Ideal) x1 (ix1 r)) (Ideal.ofBits .f32 0x3F800000#32)) := by
  rw [val_main_v22_apply, val_main_v21_apply, val_main_v20_apply, val_main_v19_apply, val_main_v18_apply,
    val_main_cst_3_apply]
  have e : idx_main_v20 (idx_main_v21 (ix2 r k)) = ix1 r :=
    funext fun a => Fin.ext (by match a with | ⟨0, _⟩ => rfl)
  rw [e]
  rfl

/-- Layer 0: both products, the bias and the clamp, entry by entry. -/
theorem layer0 (x0 : (⟨S100000x32, .f32⟩ : BufTy).Contents (Elt Ideal)) (x1 : (⟨S2x1600000, .i32⟩ : BufTy).Contents (Elt Ideal))
    (x2 x3 : (⟨S32x64, .f32⟩ : BufTy).Contents (Elt Ideal)) (x4 : (⟨S64, .f32⟩ : BufTy).Contents (Elt Ideal)) :
    val_main_v29 (F := Ideal) x0 x1 x2 x3 x4
      = Cert.Sage.denseRelu (val_main_v13 (F := Ideal) x0 x1) x0 (val_main_v17 (F := Ideal) x1) x2 x3 x4 := by
  funext i
  obtain ⟨r, j, rfl⟩ : ∃ (r : Fin 100000) (j : Fin 64), i = ix2 r j := ⟨i 0, i 1, eq_ix2 i⟩
  rw [Cert.Sage.denseRelu_apply]
  unfold Cert.Sage.denseAt
  rw [val_main_v29_apply, val_main_v28_apply, val_main_v25_apply, val_main_v23_apply, val_main_v24_apply,
    val_main_v27_apply, val_main_v26_apply, val_main_call0_v0_apply, val_main_call0_cst_apply]
  have eb : idx_main_v26 (idx_main_v27 (ix2 r j)) = ix1 j :=
    funext fun a => Fin.ext (by match a with | ⟨0, _⟩ => rfl)
  have el : ∀ k : Fin 32, lidx_main_v23 (ix2 r j) k = ix2 r k := fun k =>
    funext fun a => Fin.ext (by match a with | ⟨0, _⟩ => rfl | ⟨1, _⟩ => rfl)
  have er : ∀ k : Fin 32, ridx_main_v23 (ix2 r j) k = ix2 k j := fun k =>
    funext fun a => Fin.ext (by match a with | ⟨0, _⟩ => rfl | ⟨1, _⟩ => rfl)
  have el' : ∀ k : Fin 32, lidx_main_v24 (ix2 r j) k = ix2 r k := el
  have er' : ∀ k : Fin 32, ridx_main_v24 (ix2 r j) k = ix2 k j := er
  have s1 : (∑ k : Fin 32, val_main_v22 (F := Ideal) x0 x1 (lidx_main_v23 (ix2 r j) k) * x2 (ridx_main_v23 (ix2 r j) k))
      = ∑ k : Fin 32, Ideal.div (val_main_v13 (F := Ideal) x0 x1 (ix2 r k))
          (max (val_main_v17 (F := Ideal) x1 (ix1 r)) (Ideal.ofBits .f32 0x3F800000#32)) * x2 (ix2 k j) :=
    Finset.sum_congr rfl fun k _ => by rw [el k, er k, mean0]
  have s2 : (∑ k : Fin 32, x0 (lidx_main_v24 (ix2 r j) k) * x3 (ridx_main_v24 (ix2 r j) k))
      = ∑ k : Fin 32, x0 (ix2 r k) * x3 (ix2 k j) :=
    Finset.sum_congr rfl fun k _ => by rw [el' k, er' k]
  rw [eb, s1, s2]
  rfl

/-- Layer 1's mean, read at a node and an input feature. -/
theorem mean1 (x0 : (⟨S100000x32, .f32⟩ : BufTy).Contents (Elt Ideal)) (x1 : (⟨S2x1600000, .i32⟩ : BufTy).Contents (Elt Ideal))
    (x2 x3 : (⟨S32x64, .f32⟩ : BufTy).Contents (Elt Ideal)) (x4 : (⟨S64, .f32⟩ : BufTy).Contents (Elt Ideal))
    (r : Fin 100000) (k : Fin 64) :
    val_main_v52 (F := Ideal) x0 x1 x2 x3 x4 (ix2 r k)
      = Ideal.div (val_main_v43 (F := Ideal) x0 x1 x2 x3 x4 (ix2 r k))
          (max (val_main_v47 (F := Ideal) x1 (ix1 r)) (Ideal.ofBits .f32 0x3F800000#32)) := by
  rw [val_main_v52_apply, val_main_v51_apply, val_main_v50_apply, val_main_v49_apply, val_main_v48_apply,
    val_main_cst_9_apply]
  have e : idx_main_v50 (idx_main_v51 (ix2 r k)) = ix1 r :=
    funext fun a => Fin.ext (by match a with | ⟨0, _⟩ => rfl)
  rw [e]
  rfl

/-- Layer 1: the same chain on layer 0's output, with 64 input features. -/
theorem layer1 (x0 : (⟨S100000x32, .f32⟩ : BufTy).Contents (Elt Ideal)) (x1 : (⟨S2x1600000, .i32⟩ : BufTy).Contents (Elt Ideal))
    (x2 x3 : (⟨S32x64, .f32⟩ : BufTy).Contents (Elt Ideal)) (x4 : (⟨S64, .f32⟩ : BufTy).Contents (Elt Ideal))
    (x5 x6 : (⟨S64x64, .f32⟩ : BufTy).Contents (Elt Ideal)) (x7 : (⟨S64, .f32⟩ : BufTy).Contents (Elt Ideal)) :
    val_main_v59 (F := Ideal) x0 x1 x2 x3 x4 x5 x6 x7
      = Cert.Sage.denseRelu (val_main_v43 (F := Ideal) x0 x1 x2 x3 x4) (val_main_v29 (F := Ideal) x0 x1 x2 x3 x4)
          (val_main_v47 (F := Ideal) x1) x5 x6 x7 := by
  funext i
  obtain ⟨r, j, rfl⟩ : ∃ (r : Fin 100000) (j : Fin 64), i = ix2 r j := ⟨i 0, i 1, eq_ix2 i⟩
  rw [Cert.Sage.denseRelu_apply]
  unfold Cert.Sage.denseAt
  rw [val_main_v59_apply, val_main_v58_apply, val_main_v55_apply, val_main_v53_apply, val_main_v54_apply,
    val_main_v57_apply, val_main_v56_apply, val_main_call1_v0_apply, val_main_call1_cst_apply]
  have eb : idx_main_v56 (idx_main_v57 (ix2 r j)) = ix1 j :=
    funext fun a => Fin.ext (by match a with | ⟨0, _⟩ => rfl)
  have el : ∀ k : Fin 64, lidx_main_v53 (ix2 r j) k = ix2 r k := fun k =>
    funext fun a => Fin.ext (by match a with | ⟨0, _⟩ => rfl | ⟨1, _⟩ => rfl)
  have er : ∀ k : Fin 64, ridx_main_v53 (ix2 r j) k = ix2 k j := fun k =>
    funext fun a => Fin.ext (by match a with | ⟨0, _⟩ => rfl | ⟨1, _⟩ => rfl)
  have el' : ∀ k : Fin 64, lidx_main_v54 (ix2 r j) k = ix2 r k := el
  have er' : ∀ k : Fin 64, ridx_main_v54 (ix2 r j) k = ix2 k j := er
  have s1 : (∑ k : Fin 64, val_main_v52 (F := Ideal) x0 x1 x2 x3 x4 (lidx_main_v53 (ix2 r j) k) * x5 (ridx_main_v53 (ix2 r j) k))
      = ∑ k : Fin 64, Ideal.div (val_main_v43 (F := Ideal) x0 x1 x2 x3 x4 (ix2 r k))
          (max (val_main_v47 (F := Ideal) x1 (ix1 r)) (Ideal.ofBits .f32 0x3F800000#32)) * x5 (ix2 k j) :=
    Finset.sum_congr rfl fun k _ => by rw [el k, er k, mean1]
  have s2 : (∑ k : Fin 64, val_main_v29 (F := Ideal) x0 x1 x2 x3 x4 (lidx_main_v54 (ix2 r j) k) * x6 (ridx_main_v54 (ix2 r j) k))
      = ∑ k : Fin 64, val_main_v29 (F := Ideal) x0 x1 x2 x3 x4 (ix2 r k) * x6 (ix2 k j) :=
    Finset.sum_congr rfl fun k _ => by rw [el' k, er' k]
  rw [eb, s1, s2]
  rfl

/-- Layer 2's mean, read at a node and an input feature. -/
theorem mean2 (x0 : (⟨S100000x32, .f32⟩ : BufTy).Contents (Elt Ideal)) (x1 : (⟨S2x1600000, .i32⟩ : BufTy).Contents (Elt Ideal))
    (x2 x3 : (⟨S32x64, .f32⟩ : BufTy).Contents (Elt Ideal)) (x4 : (⟨S64, .f32⟩ : BufTy).Contents (Elt Ideal))
    (x5 x6 : (⟨S64x64, .f32⟩ : BufTy).Contents (Elt Ideal)) (x7 : (⟨S64, .f32⟩ : BufTy).Contents (Elt Ideal))
    (r : Fin 100000) (k : Fin 64) :
    val_main_v82 (F := Ideal) x0 x1 x2 x3 x4 x5 x6 x7 (ix2 r k)
      = Ideal.div (val_main_v73 (F := Ideal) x0 x1 x2 x3 x4 x5 x6 x7 (ix2 r k))
          (max (val_main_v77 (F := Ideal) x1 (ix1 r)) (Ideal.ofBits .f32 0x3F800000#32)) := by
  rw [val_main_v82_apply, val_main_v81_apply, val_main_v80_apply, val_main_v79_apply, val_main_v78_apply,
    val_main_cst_15_apply]
  have e : idx_main_v80 (idx_main_v81 (ix2 r k)) = ix1 r :=
    funext fun a => Fin.ext (by match a with | ⟨0, _⟩ => rfl)
  rw [e]
  rfl

/-- Layer 2: one output feature and no clamp. The bias has a single entry, read at the only index there is. -/
theorem layer2 (x0 : (⟨S100000x32, .f32⟩ : BufTy).Contents (Elt Ideal)) (x1 : (⟨S2x1600000, .i32⟩ : BufTy).Contents (Elt Ideal))
    (x2 x3 : (⟨S32x64, .f32⟩ : BufTy).Contents (Elt Ideal)) (x4 : (⟨S64, .f32⟩ : BufTy).Contents (Elt Ideal))
    (x5 x6 : (⟨S64x64, .f32⟩ : BufTy).Contents (Elt Ideal)) (x7 : (⟨S64, .f32⟩ : BufTy).Contents (Elt Ideal))
    (x8 x9 : (⟨S64x1, .f32⟩ : BufTy).Contents (Elt Ideal)) (x10 : (⟨S1, .f32⟩ : BufTy).Contents (Elt Ideal)) :
    val_main_v88 (F := Ideal) x0 x1 x2 x3 x4 x5 x6 x7 x8 x9 x10
      = Cert.Sage.dense (val_main_v73 (F := Ideal) x0 x1 x2 x3 x4 x5 x6 x7) (val_main_v59 (F := Ideal) x0 x1 x2 x3 x4 x5 x6 x7)
          (val_main_v77 (F := Ideal) x1) x8 x9 x10 := by
  funext i
  obtain ⟨r, j, rfl⟩ : ∃ (r : Fin 100000) (j : Fin 1), i = ix2 r j := ⟨i 0, i 1, eq_ix2 i⟩
  rw [Cert.Sage.dense_apply]
  unfold Cert.Sage.denseAt
  rw [val_main_v88_apply, val_main_v85_apply, val_main_v83_apply, val_main_v84_apply,
    val_main_v87_apply, val_main_v86_apply]
  have eb : idx_main_v86 (idx_main_v87 (ix2 r j)) = ix1 j :=
    funext fun a => Fin.ext (by
      match a with
      | ⟨0, _⟩ => have hj : j.val < 1 := j.isLt; show (0 : ℕ) = j.val; omega)
  have el : ∀ k : Fin 64, lidx_main_v83 (ix2 r j) k = ix2 r k := fun k =>
    funext fun a => Fin.ext (by match a with | ⟨0, _⟩ => rfl | ⟨1, _⟩ => rfl)
  have er : ∀ k : Fin 64, ridx_main_v83 (ix2 r j) k = ix2 k j := fun k =>
    funext fun a => Fin.ext (by match a with | ⟨0, _⟩ => rfl | ⟨1, _⟩ => rfl)
  have el' : ∀ k : Fin 64, lidx_main_v84 (ix2 r j) k = ix2 r k := el
  have er' : ∀ k : Fin 64, ridx_main_v84 (ix2 r j) k = ix2 k j := er
  have s1 : (∑ k : Fin 64, val_main_v82 (F := Ideal) x0 x1 x2 x3 x4 x5 x6 x7 (lidx_main_v83 (ix2 r j) k) * x8 (ridx_main_v83 (ix2 r j) k))
      = ∑ k : Fin 64, Ideal.div (val_main_v73 (F := Ideal) x0 x1 x2 x3 x4 x5 x6 x7 (ix2 r k))
          (max (val_main_v77 (F := Ideal) x1 (ix1 r)) (Ideal.ofBits .f32 0x3F800000#32)) * x8 (ix2 k j) :=
    Finset.sum_congr rfl fun k _ => by rw [el k, er k, mean2]
  have s2 : (∑ k : Fin 64, val_main_v59 (F := Ideal) x0 x1 x2 x3 x4 x5 x6 x7 (lidx_main_v84 (ix2 r j) k) * x9 (ridx_main_v84 (ix2 r j) k))
      = ∑ k : Fin 64, val_main_v59 (F := Ideal) x0 x1 x2 x3 x4 x5 x6 x7 (ix2 r k) * x9 (ix2 k j) :=
    Finset.sum_congr rfl fun k _ => by rw [el' k, er' k]
  rw [eb, s1, s2]
  rfl

/-- The in-degrees are recomputed before every layer by the same three operations on the same edge list: the
    second and third copies are the first. -/
theorem cnt_layer1 (x1 : (⟨S2x1600000, .i32⟩ : BufTy).Contents (Elt Ideal)) :
    val_main_v47 (F := Ideal) x1 = val_main_v17 (F := Ideal) x1 := rfl

theorem cnt_layer2 (x1 : (⟨S2x1600000, .i32⟩ : BufTy).Contents (Elt Ideal)) :
    val_main_v77 (F := Ideal) x1 = val_main_v17 (F := Ideal) x1 := rfl

end Cert.ReferenceIdeal.Layers

end
-- ==== Proof.KernelHost.lean ====
/-
  The kernel's program between its three regions: what each region finds in the arrays it reads, and so what the
  program's result array ends holding, as the reference's own functions of the argument arrays.

  Before region 0 the host sums, for every node, the features of its in-neighbours (a gather along the edges' sources
  followed by a scatter-addition along their destinations) and counts its in-degree; region 0 turns these into
  layer 0's output. The same gather and scatter-addition applied to that output feed region 1, and once more for
  region 2; the in-degree column is computed once and read by all three regions. The gather and the
  scatter-addition are never opened: the reference applies the same operations to the same values, so each
  aggregate is the reference's aggregate as soon as the array going in is the reference's. The three regions'
  outputs are the layer function (KernelRegion0/1/2) of what they find, which is what the reference's layer
  is (RefLayers), so array by array the kernel's program holds the reference's values, and the last reshape
  drops the unit axis of region 2's one-column output.
-/
import proofs.«176463_j83623013253774_1_alg».proof.Proof.Gen.KernelIdeal.Frame
import proofs.«176463_j83623013253774_1_alg».proof.Proof.Gen.ReferenceIdeal.Read
import proofs.«176463_j83623013253774_1_alg».proof.Proof.KernelRegion0
import proofs.«176463_j83623013253774_1_alg».proof.Proof.KernelRegion1
import proofs.«176463_j83623013253774_1_alg».proof.Proof.KernelRegion2
import proofs.«176463_j83623013253774_1_alg».proof.Proof.RefLayers
import proofs.«176463_j83623013253774_1_alg».proof.Proof.Spec
import proofs.«176463_j83623013253774_1_alg».proof.Proof.LibColumn
import Idealize.ShloMosaic.Lib.StableHlo.Run
import Idealize.ShloMosaic.Lib.ValueIdx
import Idealize.ShloMosaic.Lib.ValueLayout

set_option maxRecDepth 16384

noncomputable section

namespace Cert.KernelIdeal.Host

open Cert.KernelIdeal Cert.KernelIdeal.Gen Cert.ReferenceIdeal.Read
open Idealize.ShloMosaic Idealize.ShloMosaic.TcCoe Idealize.SL.Sem Idealize.ShloMosaic.StableHlo Idealize.ShloMosaic.ValueIdx

/-- A vector cast to a one-column array and read back as the vector of its rows is the vector. -/
theorem colOf_cast {N : ℕ} (x : (⟨1, ![N]⟩ : Shape).Idx → EReal) (h : (⟨1, ![N]⟩ : Shape).ShapeCasts ⟨2, ![N, 1]⟩) :
    Cert.Sage.colOf (shapeCast ⟨2, ![N, 1]⟩ x h) = x := by
  funext i
  obtain ⟨r, rfl⟩ : ∃ r : Fin N, i = ix1 r := ⟨i 0, eq_ix1 i⟩
  exact Cert.LibColumn.shapeCast_a_a1_apply x h r 0

/-- A vector cast to a one-row array and read back as the vector of its columns is the vector. -/
theorem rowOf_cast {J : ℕ} (b : (⟨1, ![J]⟩ : Shape).Idx → EReal) (h : (⟨1, ![J]⟩ : Shape).ShapeCasts ⟨2, ![1, J]⟩) :
    Cert.Sage.rowOf (shapeCast ⟨2, ![1, J]⟩ b h) = b := by
  funext i
  obtain ⟨j, rfl⟩ : ∃ j : Fin J, i = ix1 j := ⟨i 0, eq_ix1 i⟩
  exact shapeCast_a_1a_apply b h 0 j

variable (m : (ℓ : Loc nD τ sig) → Buf (Elt Ideal) ℓ) (ρ : Dev nD → PrngReg) (c : Dev nD)

/-! ## Before region 0 -/

set_option maxHeartbeats 4000000 in
/-- The summed neighbour features of the node features. -/
theorem w1_agg : W1 m ρ c (Proc.devRef .tc main_v18) = val_main_v13 (F := Ideal) (m ((c : Thread nD τ).loc main_arg0)) (m ((c : Thread nD τ).loc main_arg1)) := by
  show StableHlo.after hostOps0 (W0 m ρ c) (Proc.devRef .tc main_v18) = _
  after_results_simp <;> rfl
set_option maxHeartbeats 4000000 in
/-- The in-degrees, as a column. -/
theorem w1_cnt : W1 m ρ c (Proc.devRef .tc main_v8) = shapeCast S100000x1 (val_main_v17 (F := Ideal) (m ((c : Thread nD τ).loc main_arg1))) Facts₀.shapeCasts_S100000_S100000x1 := by
  show StableHlo.after hostOps0 (W0 m ρ c) (Proc.devRef .tc main_v8) = _
  after_results_simp <;> rfl
set_option maxHeartbeats 4000000 in
/-- Layer 0's bias, as a row. -/
theorem w1_b : W1 m ρ c (Proc.devRef .tc main_v19) = shapeCast S1x64 (m ((c : Thread nD τ).loc main_arg4)) Facts₀.shapeCasts_S64_S1x64 := by
  show StableHlo.after hostOps0 (W0 m ρ c) (Proc.devRef .tc main_v19) = _
  after_results_simp <;> rfl
set_option maxHeartbeats 4000000 in
/-- The edges' sources. -/
theorem w1_src : W1 m ρ c (Proc.devRef .tc main_v1) = val_main_v1 (F := Ideal) (m ((c : Thread nD τ).loc main_arg1)) := by
  show StableHlo.after hostOps0 (W0 m ρ c) (Proc.devRef .tc main_v1) = _
  after_results_simp <;> rfl
set_option maxHeartbeats 4000000 in
/-- The edges' destinations. -/
theorem w1_dst : W1 m ρ c (Proc.devRef .tc main_v3) = val_main_v3 (F := Ideal) (m ((c : Thread nD τ).loc main_arg1)) := by
  show StableHlo.after hostOps0 (W0 m ρ c) (Proc.devRef .tc main_v3) = _
  after_results_simp <;> rfl
set_option maxHeartbeats 4000000 in
theorem w1_arg0 : W1 m ρ c (Proc.devRef .tc main_arg0) = (m ((c : Thread nD τ).loc main_arg0)) := by
  show StableHlo.after hostOps0 (W0 m ρ c) (Proc.devRef .tc main_arg0) = _
  after_results_simp <;> rfl
set_option maxHeartbeats 4000000 in
theorem w1_arg2 : W1 m ρ c (Proc.devRef .tc main_arg2) = (m ((c : Thread nD τ).loc main_arg2)) := by
  show StableHlo.after hostOps0 (W0 m ρ c) (Proc.devRef .tc main_arg2) = _
  after_results_simp <;> rfl
set_option maxHeartbeats 4000000 in
theorem w1_arg3 : W1 m ρ c (Proc.devRef .tc main_arg3) = (m ((c : Thread nD τ).loc main_arg3)) := by
  show StableHlo.after hostOps0 (W0 m ρ c) (Proc.devRef .tc main_arg3) = _
  after_results_simp <;> rfl
set_option maxHeartbeats 4000000 in
theorem w1_arg5 : W1 m ρ c (Proc.devRef .tc main_arg5) = (m ((c : Thread nD τ).loc main_arg5)) := by
  show StableHlo.after hostOps0 (W0 m ρ c) (Proc.devRef .tc main_arg5) = _
  after_results_simp <;> rfl
set_option maxHeartbeats 4000000 in
theorem w1_arg6 : W1 m ρ c (Proc.devRef .tc main_arg6) = (m ((c : Thread nD τ).loc main_arg6)) := by
  show StableHlo.after hostOps0 (W0 m ρ c) (Proc.devRef .tc main_arg6) = _
  after_results_simp <;> rfl
set_option maxHeartbeats 4000000 in
theorem w1_arg7 : W1 m ρ c (Proc.devRef .tc main_arg7) = (m ((c : Thread nD τ).loc main_arg7)) := by
  show StableHlo.after hostOps0 (W0 m ρ c) (Proc.devRef .tc main_arg7) = _
  after_results_simp <;> rfl
set_option maxHeartbeats 4000000 in
theorem w1_arg8 : W1 m ρ c (Proc.devRef .tc main_arg8) = (m ((c : Thread nD τ).loc main_arg8)) := by
  show StableHlo.after hostOps0 (W0 m ρ c) (Proc.devRef .tc main_arg8) = _
  after_results_simp <;> rfl
set_option maxHeartbeats 4000000 in
theorem w1_arg9 : W1 m ρ c (Proc.devRef .tc main_arg9) = (m ((c : Thread nD τ).loc main_arg9)) := by
  show StableHlo.after hostOps0 (W0 m ρ c) (Proc.devRef .tc main_arg9) = _
  after_results_simp <;> rfl
set_option maxHeartbeats 4000000 in
theorem w1_arg10 : W1 m ρ c (Proc.devRef .tc main_arg10) = (m ((c : Thread nD τ).loc main_arg10)) := by
  show StableHlo.after hostOps0 (W0 m ρ c) (Proc.devRef .tc main_arg10) = _
  after_results_simp <;> rfl

/-! ## Region 0 -/

/-- Region 0's output array is the reference's layer 0. -/
theorem w2_out : W2 m ρ c (Proc.devRef .tc main_v20) = val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W2_arr m ρ c 6).trans ((Cert.KernelIdeal.Region0.final (V1 m ρ) c).trans ?_)
  have e0 : Cert.KernelIdeal.Region0.aggArr (V1 m ρ) c = val_main_v13 (F := Ideal) (m ((c : Thread nD τ).loc main_arg0)) (m ((c : Thread nD τ).loc main_arg1)) := w1_agg m ρ c
  have e1 : Cert.KernelIdeal.Region0.xArr (V1 m ρ) c = (m ((c : Thread nD τ).loc main_arg0)) := w1_arg0 m ρ c
  have e2 : Cert.KernelIdeal.Region0.cntArr (V1 m ρ) c = shapeCast S100000x1 (val_main_v17 (F := Ideal) (m ((c : Thread nD τ).loc main_arg1))) Facts₀.shapeCasts_S100000_S100000x1 := w1_cnt m ρ c
  have e3 : Cert.KernelIdeal.Region0.wlArr (V1 m ρ) c = (m ((c : Thread nD τ).loc main_arg2)) := w1_arg2 m ρ c
  have e4 : Cert.KernelIdeal.Region0.wrArr (V1 m ρ) c = (m ((c : Thread nD τ).loc main_arg3)) := w1_arg3 m ρ c
  have e5 : Cert.KernelIdeal.Region0.bArr (V1 m ρ) c = shapeCast S1x64 (m ((c : Thread nD τ).loc main_arg4)) Facts₀.shapeCasts_S64_S1x64 := w1_b m ρ c
  show Cert.Sage.denseRelu (Cert.KernelIdeal.Region0.aggArr (V1 m ρ) c) (Cert.KernelIdeal.Region0.xArr (V1 m ρ) c) (Cert.Sage.colOf (Cert.KernelIdeal.Region0.cntArr (V1 m ρ) c)) (Cert.KernelIdeal.Region0.wlArr (V1 m ρ) c) (Cert.KernelIdeal.Region0.wrArr (V1 m ρ) c) (Cert.Sage.rowOf (Cert.KernelIdeal.Region0.bArr (V1 m ρ) c)) = _
  rw [e0, e1, e2, e3, e4, e5, colOf_cast, rowOf_cast]
  exact (Cert.ReferenceIdeal.Layers.layer0 _ _ _ _ _).symm

/-- The region reads the in-degree column and leaves it as it was. -/
theorem w2_cnt : W2 m ρ c (Proc.devRef .tc main_v8) = shapeCast S100000x1 (val_main_v17 (F := Ideal) (m ((c : Thread nD τ).loc main_arg1))) Facts₀.shapeCasts_S100000_S100000x1 :=
  (W2_arr m ρ c 2).trans (((dat0 (V1 m ρ) c).arrAt_in 2 rfl _).trans ((A_eq0 (V1 m ρ) c 2).trans (w1_cnt m ρ c)))
theorem w2_src : W2 m ρ c (Proc.devRef .tc main_v1) = val_main_v1 (F := Ideal) (m ((c : Thread nD τ).loc main_arg1)) :=
  (W2_of_ne m ρ c main_v1 (by decide)).trans (w1_src m ρ c)
theorem w2_dst : W2 m ρ c (Proc.devRef .tc main_v3) = val_main_v3 (F := Ideal) (m ((c : Thread nD τ).loc main_arg1)) :=
  (W2_of_ne m ρ c main_v3 (by decide)).trans (w1_dst m ρ c)
theorem w2_arg5 : W2 m ρ c (Proc.devRef .tc main_arg5) = (m ((c : Thread nD τ).loc main_arg5)) :=
  (W2_of_ne m ρ c main_arg5 (by decide)).trans (w1_arg5 m ρ c)
theorem w2_arg6 : W2 m ρ c (Proc.devRef .tc main_arg6) = (m ((c : Thread nD τ).loc main_arg6)) :=
  (W2_of_ne m ρ c main_arg6 (by decide)).trans (w1_arg6 m ρ c)
theorem w2_arg7 : W2 m ρ c (Proc.devRef .tc main_arg7) = (m ((c : Thread nD τ).loc main_arg7)) :=
  (W2_of_ne m ρ c main_arg7 (by decide)).trans (w1_arg7 m ρ c)
theorem w2_arg8 : W2 m ρ c (Proc.devRef .tc main_arg8) = (m ((c : Thread nD τ).loc main_arg8)) :=
  (W2_of_ne m ρ c main_arg8 (by decide)).trans (w1_arg8 m ρ c)
theorem w2_arg9 : W2 m ρ c (Proc.devRef .tc main_arg9) = (m ((c : Thread nD τ).loc main_arg9)) :=
  (W2_of_ne m ρ c main_arg9 (by decide)).trans (w1_arg9 m ρ c)
theorem w2_arg10 : W2 m ρ c (Proc.devRef .tc main_arg10) = (m ((c : Thread nD τ).loc main_arg10)) :=
  (W2_of_ne m ρ c main_arg10 (by decide)).trans (w1_arg10 m ρ c)

/-! ## Between regions 0 and 1 -/

set_option maxHeartbeats 4000000 in
/-- The summed neighbour features of layer 0's output. -/
theorem w3_agg : W3 m ρ c (Proc.devRef .tc main_v30) = val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps1 (W2 m ρ c) (Proc.devRef .tc main_v30) = _
  after_results_simp
  rw [w2_out, w2_src, w2_dst]
  rfl
set_option maxHeartbeats 4000000 in
theorem w3_x : W3 m ρ c (Proc.devRef .tc main_v20) = val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps1 (W2 m ρ c) (Proc.devRef .tc main_v20) = _
  after_results_simp
  exact w2_out m ρ c
set_option maxHeartbeats 4000000 in
theorem w3_cnt : W3 m ρ c (Proc.devRef .tc main_v8) = shapeCast S100000x1 (val_main_v17 (F := Ideal) (m ((c : Thread nD τ).loc main_arg1))) Facts₀.shapeCasts_S100000_S100000x1 := by
  show StableHlo.after hostOps1 (W2 m ρ c) (Proc.devRef .tc main_v8) = _
  after_results_simp
  exact w2_cnt m ρ c
set_option maxHeartbeats 4000000 in
/-- Layer 1's bias, as a row. -/
theorem w3_b : W3 m ρ c (Proc.devRef .tc main_v31) = shapeCast S1x64 (m ((c : Thread nD τ).loc main_arg7)) Facts₀.shapeCasts_S64_S1x64 := by
  show StableHlo.after hostOps1 (W2 m ρ c) (Proc.devRef .tc main_v31) = _
  after_results_simp
  rw [w2_arg7]
  rfl
set_option maxHeartbeats 4000000 in
theorem w3_src : W3 m ρ c (Proc.devRef .tc main_v1) = val_main_v1 (F := Ideal) (m ((c : Thread nD τ).loc main_arg1)) := by
  show StableHlo.after hostOps1 (W2 m ρ c) (Proc.devRef .tc main_v1) = _
  after_results_simp
  exact w2_src m ρ c
set_option maxHeartbeats 4000000 in
theorem w3_dst : W3 m ρ c (Proc.devRef .tc main_v3) = val_main_v3 (F := Ideal) (m ((c : Thread nD τ).loc main_arg1)) := by
  show StableHlo.after hostOps1 (W2 m ρ c) (Proc.devRef .tc main_v3) = _
  after_results_simp
  exact w2_dst m ρ c
set_option maxHeartbeats 4000000 in
theorem w3_arg5 : W3 m ρ c (Proc.devRef .tc main_arg5) = (m ((c : Thread nD τ).loc main_arg5)) := by
  show StableHlo.after hostOps1 (W2 m ρ c) (Proc.devRef .tc main_arg5) = _
  after_results_simp
  exact w2_arg5 m ρ c
set_option maxHeartbeats 4000000 in
theorem w3_arg6 : W3 m ρ c (Proc.devRef .tc main_arg6) = (m ((c : Thread nD τ).loc main_arg6)) := by
  show StableHlo.after hostOps1 (W2 m ρ c) (Proc.devRef .tc main_arg6) = _
  after_results_simp
  exact w2_arg6 m ρ c
set_option maxHeartbeats 4000000 in
theorem w3_arg8 : W3 m ρ c (Proc.devRef .tc main_arg8) = (m ((c : Thread nD τ).loc main_arg8)) := by
  show StableHlo.after hostOps1 (W2 m ρ c) (Proc.devRef .tc main_arg8) = _
  after_results_simp
  exact w2_arg8 m ρ c
set_option maxHeartbeats 4000000 in
theorem w3_arg9 : W3 m ρ c (Proc.devRef .tc main_arg9) = (m ((c : Thread nD τ).loc main_arg9)) := by
  show StableHlo.after hostOps1 (W2 m ρ c) (Proc.devRef .tc main_arg9) = _
  after_results_simp
  exact w2_arg9 m ρ c
set_option maxHeartbeats 4000000 in
theorem w3_arg10 : W3 m ρ c (Proc.devRef .tc main_arg10) = (m ((c : Thread nD τ).loc main_arg10)) := by
  show StableHlo.after hostOps1 (W2 m ρ c) (Proc.devRef .tc main_arg10) = _
  after_results_simp
  exact w2_arg10 m ρ c

/-! ## Region 1 -/

/-- Region 1's output array is the reference's layer 1. -/
theorem w4_out : W4 m ρ c (Proc.devRef .tc main_v32) = val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W4_arr m ρ c 6).trans ((Cert.KernelIdeal.Region1.final (V3 m ρ) c).trans ?_)
  have e0 : Cert.KernelIdeal.Region1.aggArr (V3 m ρ) c = val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := w3_agg m ρ c
  have e1 : Cert.KernelIdeal.Region1.xArr (V3 m ρ) c = val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := w3_x m ρ c
  have e2 : Cert.KernelIdeal.Region1.cntArr (V3 m ρ) c = shapeCast S100000x1 (val_main_v17 (F := Ideal) (m ((c : Thread nD τ).loc main_arg1))) Facts₀.shapeCasts_S100000_S100000x1 := w3_cnt m ρ c
  have e3 : Cert.KernelIdeal.Region1.wlArr (V3 m ρ) c = (m ((c : Thread nD τ).loc main_arg5)) := w3_arg5 m ρ c
  have e4 : Cert.KernelIdeal.Region1.wrArr (V3 m ρ) c = (m ((c : Thread nD τ).loc main_arg6)) := w3_arg6 m ρ c
  have e5 : Cert.KernelIdeal.Region1.bArr (V3 m ρ) c = shapeCast S1x64 (m ((c : Thread nD τ).loc main_arg7)) Facts₀.shapeCasts_S64_S1x64 := w3_b m ρ c
  show Cert.Sage.denseRelu (Cert.KernelIdeal.Region1.aggArr (V3 m ρ) c) (Cert.KernelIdeal.Region1.xArr (V3 m ρ) c) (Cert.Sage.colOf (Cert.KernelIdeal.Region1.cntArr (V3 m ρ) c)) (Cert.KernelIdeal.Region1.wlArr (V3 m ρ) c) (Cert.KernelIdeal.Region1.wrArr (V3 m ρ) c) (Cert.Sage.rowOf (Cert.KernelIdeal.Region1.bArr (V3 m ρ) c)) = _
  rw [e0, e1, e2, e3, e4, e5, colOf_cast, rowOf_cast, ← Cert.ReferenceIdeal.Layers.cnt_layer1]
  exact (Cert.ReferenceIdeal.Layers.layer1 _ _ _ _ _ _ _ _).symm

theorem w4_cnt : W4 m ρ c (Proc.devRef .tc main_v8) = shapeCast S100000x1 (val_main_v17 (F := Ideal) (m ((c : Thread nD τ).loc main_arg1))) Facts₀.shapeCasts_S100000_S100000x1 :=
  (W4_arr m ρ c 2).trans (((dat1 (V3 m ρ) c).arrAt_in 2 rfl _).trans ((A_eq1 (V3 m ρ) c 2).trans (w3_cnt m ρ c)))
theorem w4_src : W4 m ρ c (Proc.devRef .tc main_v1) = val_main_v1 (F := Ideal) (m ((c : Thread nD τ).loc main_arg1)) :=
  (W4_of_ne m ρ c main_v1 (by decide)).trans (w3_src m ρ c)
theorem w4_dst : W4 m ρ c (Proc.devRef .tc main_v3) = val_main_v3 (F := Ideal) (m ((c : Thread nD τ).loc main_arg1)) :=
  (W4_of_ne m ρ c main_v3 (by decide)).trans (w3_dst m ρ c)
theorem w4_arg8 : W4 m ρ c (Proc.devRef .tc main_arg8) = (m ((c : Thread nD τ).loc main_arg8)) :=
  (W4_of_ne m ρ c main_arg8 (by decide)).trans (w3_arg8 m ρ c)
theorem w4_arg9 : W4 m ρ c (Proc.devRef .tc main_arg9) = (m ((c : Thread nD τ).loc main_arg9)) :=
  (W4_of_ne m ρ c main_arg9 (by decide)).trans (w3_arg9 m ρ c)
theorem w4_arg10 : W4 m ρ c (Proc.devRef .tc main_arg10) = (m ((c : Thread nD τ).loc main_arg10)) :=
  (W4_of_ne m ρ c main_arg10 (by decide)).trans (w3_arg10 m ρ c)

/-! ## Between regions 1 and 2 -/

set_option maxHeartbeats 4000000 in
/-- The summed neighbour features of layer 1's output. -/
theorem w5_agg : W5 m ρ c (Proc.devRef .tc main_v42) = val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps2 (W4 m ρ c) (Proc.devRef .tc main_v42) = _
  after_results_simp
  rw [w4_out, w4_src, w4_dst]
  rfl
set_option maxHeartbeats 4000000 in
theorem w5_x : W5 m ρ c (Proc.devRef .tc main_v32) = val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps2 (W4 m ρ c) (Proc.devRef .tc main_v32) = _
  after_results_simp
  exact w4_out m ρ c
set_option maxHeartbeats 4000000 in
theorem w5_cnt : W5 m ρ c (Proc.devRef .tc main_v8) = shapeCast S100000x1 (val_main_v17 (F := Ideal) (m ((c : Thread nD τ).loc main_arg1))) Facts₀.shapeCasts_S100000_S100000x1 := by
  show StableHlo.after hostOps2 (W4 m ρ c) (Proc.devRef .tc main_v8) = _
  after_results_simp
  exact w4_cnt m ρ c
set_option maxHeartbeats 4000000 in
/-- Layer 2's bias, as a one-entry row. -/
theorem w5_b : W5 m ρ c (Proc.devRef .tc main_v43) = shapeCast S1x1 (m ((c : Thread nD τ).loc main_arg10)) Facts₀.shapeCasts_S1_S1x1 := by
  show StableHlo.after hostOps2 (W4 m ρ c) (Proc.devRef .tc main_v43) = _
  after_results_simp
  rw [w4_arg10]
  rfl
set_option maxHeartbeats 4000000 in
theorem w5_arg8 : W5 m ρ c (Proc.devRef .tc main_arg8) = (m ((c : Thread nD τ).loc main_arg8)) := by
  show StableHlo.after hostOps2 (W4 m ρ c) (Proc.devRef .tc main_arg8) = _
  after_results_simp
  exact w4_arg8 m ρ c
set_option maxHeartbeats 4000000 in
theorem w5_arg9 : W5 m ρ c (Proc.devRef .tc main_arg9) = (m ((c : Thread nD τ).loc main_arg9)) := by
  show StableHlo.after hostOps2 (W4 m ρ c) (Proc.devRef .tc main_arg9) = _
  after_results_simp
  exact w4_arg9 m ρ c

/-! ## Region 2 and the result -/

/-- Region 2's output array is the reference's layer 2. -/
theorem w6_out : W6 m ρ c (Proc.devRef .tc main_v44) = val_main_v88 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W6_arr m ρ c 6).trans ((Cert.KernelIdeal.Region2.final (V5 m ρ) c).trans ?_)
  have e0 : Cert.KernelIdeal.Region2.aggArr (V5 m ρ) c = val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := w5_agg m ρ c
  have e1 : Cert.KernelIdeal.Region2.xArr (V5 m ρ) c = val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := w5_x m ρ c
  have e2 : Cert.KernelIdeal.Region2.cntArr (V5 m ρ) c = shapeCast S100000x1 (val_main_v17 (F := Ideal) (m ((c : Thread nD τ).loc main_arg1))) Facts₀.shapeCasts_S100000_S100000x1 := w5_cnt m ρ c
  have e3 : Cert.KernelIdeal.Region2.wlArr (V5 m ρ) c = (m ((c : Thread nD τ).loc main_arg8)) := w5_arg8 m ρ c
  have e4 : Cert.KernelIdeal.Region2.wrArr (V5 m ρ) c = (m ((c : Thread nD τ).loc main_arg9)) := w5_arg9 m ρ c
  have e5 : Cert.KernelIdeal.Region2.bArr (V5 m ρ) c = shapeCast S1x1 (m ((c : Thread nD τ).loc main_arg10)) Facts₀.shapeCasts_S1_S1x1 := w5_b m ρ c
  show Cert.Sage.dense (Cert.KernelIdeal.Region2.aggArr (V5 m ρ) c) (Cert.KernelIdeal.Region2.xArr (V5 m ρ) c) (Cert.Sage.colOf (Cert.KernelIdeal.Region2.cntArr (V5 m ρ) c)) (Cert.KernelIdeal.Region2.wlArr (V5 m ρ) c) (Cert.KernelIdeal.Region2.wrArr (V5 m ρ) c) (Cert.Sage.rowOf (Cert.KernelIdeal.Region2.bArr (V5 m ρ) c)) = _
  rw [e0, e1, e2, e3, e4, e5, colOf_cast, rowOf_cast, ← Cert.ReferenceIdeal.Layers.cnt_layer2]
  exact (Cert.ReferenceIdeal.Layers.layer2 _ _ _ _ _ _ _ _ _ _ _).symm

set_option maxHeartbeats 4000000 in
/-- The program's result array ends holding the reference's result, as a function of the argument arrays. -/
theorem result_eq : W7 m ρ c (Proc.devRef .tc main_v45) = val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  show StableHlo.after hostOps3 (W6 m ρ c) (Proc.devRef .tc main_v45) = _
  after_results_simp
  rw [w6_out]
  rfl

end Cert.KernelIdeal.Host

end
-- ==== Proof.lean ====
/-
  The certificate of a three-layer mean-aggregating graph network: a Pallas kernel program (three pallas_calls,
  one dense layer each, among host gathers and scatter-additions) against its jnp reference, equal over the
  extended reals.

  Both programs compute, layer by layer,
      h' = act ((agg h / max cnt 1) · Wl + h · Wr + b),
  where `agg h` sums, for every node, the rows of `h` of its in-neighbours (a gather along the edges' sources and a
  scatter-addition along their destinations), `cnt` is the in-degree, and `act` is the clamp at zero after the
  first two layers and nothing after the third. The kernel program computes `agg` and `cnt` on the host exactly as
  the reference does and hands the dense part of each layer to a pallas_call over 25 row blocks of 4000 nodes,
  with the matrix products taken on operands narrowed to bf16 — the identity on the extended reals.

  The proof: each region's output array is the layer function `Cert.Sage.denseRelu` / `Cert.Sage.dense` (Spec) of the
  arrays it finds (KernelRegion0/1/2: the stored block entry by entry, the 25 blocks tiling the array); the
  reference's layers are the same function of their operands (RefLayers, over the generated reading of the
  reference); so, walking the kernel program from its launch, every array it produces holds the reference's
  value (KernelHost), the gathers and scatter-additions never opened. No step needs the inputs finite: the two
  sides group their operations alike and differ only in the order inside finite sums.

  The frames of the two kernel programs are the generated ones; the kernel program's run with its result array
  named is the same launch with one more array read back (KernelRun); the reference's frame and value are its
  generated run. The idealization rewrote nothing, so `preserves` is trivial.
-/
import proofs.«176463_j83623013253774_1_alg».proof.Defs
import proofs.«176463_j83623013253774_1_alg».proof.Proof.Gen.Kernel
import proofs.«176463_j83623013253774_1_alg».proof.Proof.Gen.Kernel.Skeleton
import proofs.«176463_j83623013253774_1_alg».proof.Proof.Gen.Kernel.Launch
import proofs.«176463_j83623013253774_1_alg».proof.Proof.Gen.Kernel.Points
import proofs.«176463_j83623013253774_1_alg».proof.Proof.Gen.Kernel.Frame
import proofs.«176463_j83623013253774_1_alg».proof.Proof.Gen.KernelIdeal
import proofs.«176463_j83623013253774_1_alg».proof.Proof.Gen.KernelIdeal.Skeleton
import proofs.«176463_j83623013253774_1_alg».proof.Proof.Gen.KernelIdeal.Launch
import proofs.«176463_j83623013253774_1_alg».proof.Proof.Gen.KernelIdeal.Points
import proofs.«176463_j83623013253774_1_alg».proof.Proof.Gen.KernelIdeal.Frame
import proofs.«176463_j83623013253774_1_alg».proof.Proof.Gen.ReferenceIdeal
import proofs.«176463_j83623013253774_1_alg».proof.Proof.Gen.ReferenceIdeal.Run
import proofs.«176463_j83623013253774_1_alg».proof.Proof.Gen.ReferenceIdeal.Read
import proofs.«176463_j83623013253774_1_alg».proof.Proof.Gen.Pre_finite_inputs
import proofs.«176463_j83623013253774_1_alg».proof.Proof.KernelRun
import proofs.«176463_j83623013253774_1_alg».proof.Proof.KernelHost
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs end with the reference's function of the argument
    arrays in their result arrays. -/
theorem algebraic : Cert.algebraic_KernelIdeal_ReferenceIdeal := by
  intro m ρ m' ρ' _ hagree
  refine ⟨fun c => Cert.KernelIdeal.Gen.W7 m ρ c (Proc.devRef .tc Cert.KernelIdeal.main_v45),
    Cert.KernelIdeal.Run.run_named (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  rw [Cert.ReferenceIdeal.Read.val_main_v89_eq, h0, h1, h2, h3, h4, h5, h6, h7, h8, h9, h10]
  exact (Cert.KernelIdeal.Host.result_eq m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
